-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x128x128 : Shape := ⟨4, ![8, 512, 128, 128]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S225x16 : Shape := ⟨2, ![225, 16]⟩
abbrev S64x64 : Shape := ⟨2, ![64, 64]⟩
abbrev S_ : Shape := ⟨0, ![]⟩

class Facts : Prop where
  bcast_S_S8x512x128x128 : S_.BroadcastsInDim S8x512x128x128 (![] : Fin 0 → Fin S8x512x128x128.rank)
  reducesTo_S8x512x128x128_S_d0_1_2_3 : S8x512x128x128.ReducesTo [0, 1, 2, 3] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S225x16 : S_.BroadcastsInDim S225x16 (![] : Fin 0 → Fin S225x16.rank)
  reducesTo_S225x16_S_d0_1 : S225x16.ReducesTo [0, 1] S_

variable [Facts]

def fn_part2 {F : FTy → Type} [FloatOps F] (main_arg7 : FVec F S512 .f32) (main_arg8 : FVec F S225x16 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S225x16 .f32 := Host.absf main_arg8
  let main_cst_14 : FVec F S_ .f32 := constant S_ .f32 0x7F800000#32
  let main_v40 : FVec F S225x16 .f32 := broadcastInDim S225x16 ![] bcast_S_S225x16 main_cst_14
  let main_v41 : IVec S225x16 1 := cmpf .olt main_v39 main_v40
  let main_c_15 : IVec S_ 1 := constantI S_ 1 1#1
  let main_v42 : IVec S_ 1 := (fun x v => Host.reduce IntOp.andi x v reducesTo_S225x16_S_d0_1 h_S_) main_v41 main_c_15
  let main_v43 : IVec S_ 1 := andi main_v38 main_v42
  main_v43

def fn_part1 {F : FTy → Type} [FloatOps F] (main_arg4 : FVec F S1024x512 .f32) (main_arg5 : FVec F S1024 .f32) (main_arg6 : FVec F S512x512 .f32) (main_arg7 : FVec F S512 .f32) (main_arg8 : FVec F S225x16 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_v33

def fn {F : FTy → Type} [FloatOps F] (main_arg0 : FVec F S8x512x128x128 .f32) (main_arg1 : FVec F S8x512x128x128 .f32) (main_arg2 : FVec F S512x512 .f32) (main_arg3 : FVec F S512 .f32) (main_arg4 : FVec F S1024x512 .f32) (main_arg5 : FVec F S1024 .f32) (main_arg6 : FVec F S512x512 .f32) (main_arg7 : FVec F S512 .f32) (main_arg8 : FVec F S225x16 .f32) (main_arg9 : IVec S64x64 32) : IVec S_ 1 :=
  let main_v0 : FVec F S8x512x128x128 .f32 := Host.absf main_arg0
  let main_cst : FVec F S_ .f32 := constant S_ .f32 0x7F800000#32
  let main_v1 : FVec F S8x512x128x128 .f32 := broadcastInDim S8x512x128x128 ![] bcast_S_S8x512x128x128 main_cst
  let main_v2 : IVec S8x512x128x128 1 := cmpf .olt main_v0 main_v1
  let main_c : IVec S_ 1 := constantI S_ 1 1#1
  let main_v3 : IVec S_ 1 := (fun x v => Host.reduce IntOp.andi x v reducesTo_S8x512x128x128_S_d0_1_2_3 h_S_) main_v2 main_c
  let main_v4 : FVec F S8x512x128x128 .f32 := Host.absf main_arg1
  let main_cst_0 : FVec F S_ .f32 := constant S_ .f32 0x7F800000#32
  let main_v5 : FVec F S8x512x128x128 .f32 := broadcastInDim S8x512x128x128 ![] bcast_S_S8x512x128x128 main_cst_0
  let main_v6 : IVec S8x512x128x128 1 := cmpf .olt main_v4 main_v5
  let main_c_1 : IVec S_ 1 := constantI S_ 1 1#1
  let main_v7 : IVec S_ 1 := (fun x v => Host.reduce IntOp.andi x v reducesTo_S8x512x128x128_S_d0_1_2_3 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_v13 main_v16
-- ==== Kernel.lean ====
abbrev S8x512x128x128 : Shape := ⟨4, ![8, 512, 128, 128]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S225x16 : Shape := ⟨2, ![225, 16]⟩
abbrev S64x64 : Shape := ⟨2, ![64, 64]⟩
abbrev S512x1024 : Shape := ⟨2, ![512, 1024]⟩
abbrev S4096 : Shape := ⟨1, ![4096]⟩
abbrev S_ : Shape := ⟨0, ![]⟩
abbrev S4096x1 : Shape := ⟨2, ![4096, 1]⟩
abbrev S4096x16 : Shape := ⟨2, ![4096, 16]⟩
abbrev S64x64x16 : Shape := ⟨3, ![64, 64, 16]⟩
abbrev S16x64x64 : Shape := ⟨3, ![16, 64, 64]⟩
abbrev S1x512x8x128 : Shape := ⟨4, ![1, 512, 8, 128]⟩
abbrev S512x8x128 : Shape := ⟨3, ![512, 8, 128]⟩
abbrev S512x8x16x8 : Shape := ⟨4, ![512, 8, 16, 8]⟩
abbrev S16x8x8x512 : Shape := ⟨4, ![16, 8, 8, 512]⟩
abbrev S16x64x512 : Shape := ⟨3, ![16, 64, 512]⟩
abbrev S1x512 : Shape := ⟨2, ![1, 512]⟩
abbrev S1024x1024 : Shape := ⟨2, ![1024, 1024]⟩
abbrev S1x1024 : Shape := ⟨2, ![1, 1024]⟩
abbrev S16x64x1024 : Shape := ⟨3, ![16, 64, 1024]⟩
abbrev S16x64x16x32 : Shape := ⟨4, ![16, 64, 16, 32]⟩
abbrev S16x16x64x32 : Shape := ⟨4, ![16, 16, 64, 32]⟩
abbrev S256x64x32 : Shape := ⟨3, ![256, 64, 32]⟩
abbrev S256x64x64 : Shape := ⟨3, ![256, 64, 64]⟩
abbrev S1x16x64x64 : Shape := ⟨4, ![1, 16, 64, 64]⟩
abbrev S16x16x64x64 : Shape := ⟨4, ![16, 16, 64, 64]⟩
abbrev S256x64 : Shape := ⟨2, ![256, 64]⟩
abbrev S256x64x1 : Shape := ⟨3, ![256, 64, 1]⟩

abbrev nBuf : Space → Nat
  | .hbm => 29
  | .vmem => 13
  | .smem => 0
  | _ => 0

abbrev bufTy : (tb : Table) → Fin (tcTables nBuf tb) → BufTy
  | .hbm, ⟨0, _⟩ => ⟨S8x512x128x128, .f32⟩
  | .hbm, ⟨1, _⟩ => ⟨S8x512x128x128, .f32⟩
  | .hbm, ⟨2, _⟩ => ⟨S512x512, .f32⟩
  | .hbm, ⟨3, _⟩ => ⟨S512, .f32⟩
  | .hbm, ⟨4, _⟩ => ⟨S1024x512, .f32⟩
  | .hbm, ⟨5, _⟩ => ⟨S1024, .f32⟩
  | .hbm, ⟨6, _⟩ => ⟨S512x512, .f32⟩
  | .hbm, ⟨7, _⟩ => ⟨S512, .f32⟩
  | .hbm, ⟨8, _⟩ => ⟨S225x16, .f32⟩
  | .hbm, ⟨9, _⟩ => ⟨S64x64, .i32⟩
  | .hbm, ⟨10, _⟩ => ⟨S512x512, .f32⟩
  | .hbm, ⟨11, _⟩ => ⟨S512x512, .bf16⟩
  | .hbm, ⟨12, _⟩ => ⟨S512x1024, .f32⟩
  | .hbm, ⟨13, _⟩ => ⟨S512x1024, .bf16⟩
  | .hbm, ⟨14, _⟩ => ⟨S512x512, .f32⟩
  | .hbm, ⟨15, _⟩ => ⟨S512x512, .bf16⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S4096x1, .i32⟩
  | .hbm, ⟨25, _⟩ => ⟨S4096x16, .f32⟩
  | .hbm, ⟨26, _⟩ => ⟨S64x64x16, .f32⟩
  | .hbm, ⟨27, _⟩ => ⟨S16x64x64, .f32⟩
  | .hbm, ⟨28, _⟩ => ⟨S8x512x128x128, .f32⟩
  | .local _ .vmem, ⟨0, _⟩ => ⟨S1x512x8x128, .f32⟩
  | .local _ .vmem, ⟨1, _⟩ => ⟨S1x512x8x128, .f32⟩
  | .local _ .vmem, ⟨2, _⟩ => ⟨S1x512x8x128, .f32⟩
  | .local _ .vmem, ⟨3, _⟩ => ⟨S1x512x8x128, .f32⟩
  | .local _ .vmem, ⟨4, _⟩ => ⟨S512x512, .bf16⟩
  | .local _ .vmem, ⟨5, _⟩ => ⟨S512, .f32⟩
  | .local _ .vmem, ⟨6, _⟩ => ⟨S512x1024, .bf16⟩
  | .local _ .vmem, ⟨7, _⟩ => ⟨S1024, .f32⟩
  | .local _ .vmem, ⟨8, _⟩ => ⟨S512x512, .bf16⟩
  | .local _ .vmem, ⟨9, _⟩ => ⟨S512, .f32⟩
  | .local _ .vmem, ⟨10, _⟩ => ⟨S16x64x64, .f32⟩
  | .local _ .vmem, ⟨11, _⟩ => ⟨S1x512x8x128, .f32⟩
  | .local _ .vmem, ⟨12, _⟩ => ⟨S1x512x8x128, .f32⟩
  | _, _ => ⟨S8x512x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![8, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16x64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  transposes_S512x512_S512x512_1_0 : S512x512.Transposes [1, 0] S512x512
  bitsLt_bf16_f32 : FTy.bits .bf16 < FTy.bits .f32
  transposes_S1024x512_S512x1024_1_0 : S1024x512.Transposes [1, 0] S512x1024
  shapeCasts_S64x64_S4096 : S64x64.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  shapeCasts_S4096x16_S64x64x16 : S4096x16.ShapeCasts S64x64x16
  transposes_S64x64x16_S16x64x64_2_0_1 : S64x64x16.Transposes [2, 0, 1] S16x64x64
  inb_S1x512x8x128_S1x512x8x128_0_0_0_0 : ∀ a, (![0, 0, 0, 0] : Fin 4 → Nat) a + S1x512x8x128.size a ≤ S1x512x8x128.size a
  h_S1x512x8x128 : 0 < S1x512x8x128.numel
  shapeCasts_S1x512x8x128_S512x8x128 : S1x512x8x128.ShapeCasts S512x8x128
  shapeCasts_S512x8x128_S512x8x16x8 : S512x8x128.ShapeCasts S512x8x16x8
  transposes_S512x8x16x8_p2_1_3_0_S16x8x8x512 : S512x8x16x8.Transposes [2, 1, 3, 0] S16x8x8x512
  shapeCasts_S16x8x8x512_S16x64x512 : S16x8x8x512.ShapeCasts S16x64x512
  shapeCasts_S16x64x512_S1024x512 : S16x64x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  shapeCasts_S1024x512_S16x64x512 : S1024x512.ShapeCasts S16x64x512
  shapeCasts_S1024x1024_S16x64x1024 : S1024x1024.ShapeCasts S16x64x1024
  slices_S16x64x1024_o0_0_0_S16x64x512 : S16x64x1024.Slices ![0, 0, 0] S16x64x512
  slices_S16x64x1024_o0_0_512_S16x64x512 : S16x64x1024.Slices ![0, 0, 512] S16x64x512
  shapeCasts_S16x64x512_S16x64x16x32 : S16x64x512.ShapeCasts S16x64x16x32
  transposes_S16x64x16x32_p0_2_1_3_S16x16x64x32 : S16x64x16x32.Transposes [0, 2, 1, 3] S16x16x64x32
  shapeCasts_S16x16x64x32_S256x64x32 : S16x16x64x32.ShapeCasts S256x64x32
  inb_S16x64x64_S16x64x64_0_0_0 : ∀ a, (![0, 0, 0] : Fin 3 → Nat) a + S16x64x64.size a ≤ S16x64x64.size a
  h_S16x64x64 : 0 < S16x64x64.numel
  shapeCasts_S16x64x64_S16x64x64 : S16x64x64.ShapeCasts S16x64x64
  shapeCasts_S16x64x64_S1x16x64x64 : S16x64x64.ShapeCasts S1x16x64x64
  shapeCasts_S1x16x64x64_S1x16x64x64 : S1x16x64x64.ShapeCasts S1x16x64x64
  broadcasts_S1x16x64x64_S16x16x64x64 : S1x16x64x64.Broadcasts S16x16x64x64
  shapeCasts_S16x16x64x64_S256x64x64 : S16x16x64x64.ShapeCasts S256x64x64
  reduces_S256x64x64_S256x64 : S256x64x64.Reduces [2] S256x64
  shapeCasts_S256x64_S256x64x1 : S256x64.ShapeCasts S256x64x1
  broadcasts_S256x64x1_S256x64x64 : S256x64x1.Broadcasts S256x64x64
  shapeCasts_S256x64x32_S16x16x64x32 : S256x64x32.ShapeCasts S16x16x64x32
  transposes_S16x16x64x32_p0_2_1_3_S16x64x16x32 : S16x16x64x32.Transposes [0, 2, 1, 3] S16x64x16x32
  shapeCasts_S16x64x16x32_S16x64x512 : S16x64x16x32.ShapeCasts S16x64x512
  shapeCasts_S16x64x512_S16x8x8x512 : S16x64x512.ShapeCasts S16x8x8x512
  transposes_S16x8x8x512_p3_1_0_2_S512x8x16x8 : S16x8x8x512.Transposes [3, 1, 0, 2] S512x8x16x8
  shapeCasts_S512x8x16x8_S512x8x128 : S512x8x16x8.ShapeCasts S512x8x128
  shapeCasts_S512x8x128_S1x512x8x128 : S512x8x128.ShapeCasts S1x512x8x128
  gather_S225x16_S4096x1_S4096x16_1_0_n_n_0_1_116_wf : GatherDims.WF S225x16 S4096x1 S4096x16 [1] [0] [] [0] [] 1 ![1, 16]
  dot_S1024x512_S512x512_S1024x512_1_0_0_1_n_n_wf : DotDims.WF S1024x512 S512x512 S1024x512 [1] [0] [0] [1] [] []
  dot_S1024x512_S512x1024_S1024x1024_1_0_0_1_n_n_wf : DotDims.WF S1024x512 S512x1024 S1024x1024 [1] [0] [0] [1] [] []
  dot_S256x64x32_S256x64x32_S256x64x64_2_2_1_1_0_0_wf : DotDims.WF S256x64x32 S256x64x32 S256x64x64 [2] [2] [1] [1] [0] [0]
  dot_S256x64x64_S256x64x32_S256x64x32_2_1_1_2_0_0_wf : DotDims.WF S256x64x64 S256x64x32 S256x64x32 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x8x128.size a ≤ S8x512x128x128.size a
  hwx0_0 : ∀ i : grid0.Coords, EltTy.bits .f32 = 32 ∨ (Rect.block (s := S8x512x128x128) S1x512x8x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x8x128.size a ≤ S8x512x128x128.size a
  hwx0_1 : ∀ i : grid0.Coords, EltTy.bits .f32 = 32 ∨ (Rect.block (s := S8x512x128x128) S1x512x8x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S512x1024.size a
  hwx0_4 : ∀ i : grid0.Coords, EltTy.bits .bf16 = 32 ∨ (Rect.block (s := S512x1024) S512x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16x64x64.size a ≤ S16x64x64.size a
  hwx0_8 : ∀ i : grid0.Coords, EltTy.bits .f32 = 32 ∨ (Rect.block (s := S16x64x64) S16x64x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x8x128.size a ≤ S8x512x128x128.size a
  hwx0_9 : ∀ i : grid0.Coords, EltTy.bits .f32 = 32 ∨ (Rect.block (s := S8x512x128x128) S1x512x8x128.size (cc0_transform_9 i) (hinb0_9 i)).WholeWords (EltTy.packing .f32)

variable [Facts₀]

def gather_S225x16_S4096x1_S4096x16_1_0_n_n_0_1_116 : GatherDims S225x16 S4096x1 S4096x16 where
  offsetDims := [1]
  collapsedSliceDims := [0]
  operandBatchingDims := []
  startIndicesBatchingDims := []
  startIndexMap := [0]
  indexVectorDim := 1
  sliceSizes := ![1, 16]
  wf := gather_S225x16_S4096x1_S4096x16_1_0_n_n_0_1_116_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S256x64x32_S256x64x32_S256x64x64_2_2_1_1_0_0 : DotDims S256x64x32 S256x64x32 S256x64x64 where
  lhsContracting := [2]
  rhsContracting := [2]
  lhsNonContracting := [1]
  rhsNonContracting := [1]
  lhsBatch := [0]
  rhsBatch := [0]
  wf := dot_S256x64x32_S256x64x32_S256x64x64_2_2_1_1_0_0_wf
def dot_S256x64x64_S256x64x32_S256x64x32_2_1_1_2_0_0 : DotDims S256x64x64 S256x64x32 S256x64x32 where
  lhsContracting := [2]
  rhsContracting := [1]
  lhsNonContracting := [1]
  rhsNonContracting := [2]
  lhsBatch := [0]
  rhsBatch := [0]
  wf := dot_S256x64x64_S256x64x32_S256x64x32_2_1_1_2_0_0_wf

abbrev win0_0 : Pipeline.Window sig grid0 :=
  Pipeline.Window.ofSpec (Memref.whole main_arg0) S1x512x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S16x64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S1x512x8x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8x512x128x128 : Shape := ⟨4, ![8, 512, 128, 128]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S225x16 : Shape := ⟨2, ![225, 16]⟩
abbrev S64x64 : Shape := ⟨2, ![64, 64]⟩
abbrev S8x512x16x8x16x8 : Shape := ⟨6, ![8, 512, 16, 8, 16, 8]⟩
abbrev S8x16x16x8x8x512 : Shape := ⟨6, ![8, 16, 16, 8, 8, 512]⟩
abbrev S2048x64x512 : Shape := ⟨3, ![2048, 64, 512]⟩
abbrev S1x1x512 : Shape := ⟨3, ![1, 1, 512]⟩
abbrev S2048x64x1024 : Shape := ⟨3, ![2048, 64, 1024]⟩
abbrev S1x1x1024 : Shape := ⟨3, ![1, 1, 1024]⟩
abbrev S_ : Shape := ⟨0, ![]⟩
abbrev S2048x64x16x32 : Shape := ⟨4, ![2048, 64, 16, 32]⟩
abbrev S2048x16x64x32 : Shape := ⟨4, ![2048, 16, 64, 32]⟩
abbrev S2048x16x64x64 : Shape := ⟨4, ![2048, 16, 64, 64]⟩
abbrev S4096 : Shape := ⟨1, ![4096]⟩
abbrev S4096x1 : Shape := ⟨2, ![4096, 1]⟩
abbrev S4096x16 : Shape := ⟨2, ![4096, 16]⟩
abbrev S64x64x16 : Shape := ⟨3, ![64, 64, 16]⟩
abbrev S16x64x64 : Shape := ⟨3, ![16, 64, 64]⟩
abbrev S1x16x64x64 : Shape := ⟨4, ![1, 16, 64, 64]⟩
abbrev S2048x16x64 : Shape := ⟨3, ![2048, 16, 64]⟩
abbrev S2048x16x64x1 : Shape := ⟨4, ![2048, 16, 64, 1]⟩

abbrev nBuf : Space → Nat
  | .hbm => 75
  | .vmem => 0
  | .smem => 0
  | _ => 0

abbrev bufTy : (tb : Table) → Fin (tcTables nBuf tb) → BufTy
  | .hbm, ⟨0, _⟩ => ⟨S8x512x128x128, .f32⟩
  | .hbm, ⟨1, _⟩ => ⟨S8x512x128x128, .f32⟩
  | .hbm, ⟨2, _⟩ => ⟨S512x512, .f32⟩
  | .hbm, ⟨3, _⟩ => ⟨S512, .f32⟩
  | .hbm, ⟨4, _⟩ => ⟨S1024x512, .f32⟩
  | .hbm, ⟨5, _⟩ => ⟨S1024, .f32⟩
  | .hbm, ⟨6, _⟩ => ⟨S512x512, .f32⟩
  | .hbm, ⟨7, _⟩ => ⟨S512, .f32⟩
  | .hbm, ⟨8, _⟩ => ⟨S225x16, .f32⟩
  | .hbm, ⟨9, _⟩ => ⟨S64x64, .i32⟩
  | .hbm, ⟨10, _⟩ => ⟨S8x512x16x8x16x8, .f32⟩
  | .hbm, ⟨11, _⟩ => ⟨S8x16x16x8x8x512, .f32⟩
  | .hbm, ⟨12, _⟩ => ⟨S2048x64x512, .f32⟩
  | .hbm, ⟨13, _⟩ => ⟨S8x512x16x8x16x8, .f32⟩
  | .hbm, ⟨14, _⟩ => ⟨S8x16x16x8x8x512, .f32⟩
  | .hbm, ⟨15, _⟩ => ⟨S2048x64x512, .f32⟩
  | .hbm, ⟨16, _⟩ => ⟨S2048x64x512, .f32⟩
  | .hbm, ⟨17, _⟩ => ⟨S1x1x512, .f32⟩
  | .hbm, ⟨18, _⟩ => ⟨S2048x64x512, .f32⟩
  | .hbm, ⟨19, _⟩ => ⟨S2048x64x512, .f32⟩
  | .hbm, ⟨20, _⟩ => ⟨S2048x64x1024, .f32⟩
  | .hbm, ⟨21, _⟩ => ⟨S1x1x1024, .f32⟩
  | .hbm, ⟨22, _⟩ => ⟨S2048x64x1024, .f32⟩
  | .hbm, ⟨23, _⟩ => ⟨S2048x64x1024, .f32⟩
  | .hbm, ⟨24, _⟩ => ⟨S2048x64x512, .f32⟩
  | .hbm, ⟨25, _⟩ => ⟨S2048x64x512, .f32⟩
  | .hbm, ⟨26, _⟩ => ⟨S_, .f32⟩
  | .hbm, ⟨27, _⟩ => ⟨S2048x64x512, .f32⟩
  | .hbm, ⟨28, _⟩ => ⟨S2048x64x512, .f32⟩
  | .hbm, ⟨29, _⟩ => ⟨S2048x64x16x32, .f32⟩
  | .hbm, ⟨30, _⟩ => ⟨S2048x16x64x32, .f32⟩
  | .hbm, ⟨31, _⟩ => ⟨S2048x64x16x32, .f32⟩
  | .hbm, ⟨32, _⟩ => ⟨S2048x16x64x32, .f32⟩
  | .hbm, ⟨33, _⟩ => ⟨S2048x64x16x32, .f32⟩
  | .hbm, ⟨34, _⟩ => ⟨S2048x16x64x32, .f32⟩
  | .hbm, ⟨35, _⟩ => ⟨S2048x16x64x64, .f32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S4096, .i32⟩
  | .hbm, ⟨44, _⟩ => ⟨S4096x1, .i32⟩
  | .hbm, ⟨45, _⟩ => ⟨S4096x16, .f32⟩
  | .hbm, ⟨46, _⟩ => ⟨S64x64x16, .f32⟩
  | .hbm, ⟨47, _⟩ => ⟨S16x64x64, .f32⟩
  | .hbm, ⟨48, _⟩ => ⟨S1x16x64x64, .f32⟩
  | .hbm, ⟨49, _⟩ => ⟨S2048x16x64x64, .f32⟩
  | .hbm, ⟨50, _⟩ => ⟨S2048x16x64x64, .f32⟩
  | .hbm, ⟨51, _⟩ => ⟨S_, .f32⟩
  | .hbm, ⟨52, _⟩ => ⟨S2048x16x64, .f32⟩
  | .hbm, ⟨53, _⟩ => ⟨S_, .f32⟩
  | .hbm, ⟨54, _⟩ => ⟨S2048x16x64, .f32⟩
  | .hbm, ⟨55, _⟩ => ⟨S2048x16x64, .f32⟩
  | .hbm, ⟨56, _⟩ => ⟨S2048x16x64x1, .f32⟩
  | .hbm, ⟨57, _⟩ => ⟨S2048x16x64x64, .f32⟩
  | .hbm, ⟨58, _⟩ => ⟨S2048x16x64x64, .f32⟩
  | .hbm, ⟨59, _⟩ => ⟨S2048x16x64x64, .f32⟩
  | .hbm, ⟨60, _⟩ => ⟨S_, .f32⟩
  | .hbm, ⟨61, _⟩ => ⟨S2048x16x64, .f32⟩
  | .hbm, ⟨62, _⟩ => ⟨S2048x16x64x1, .f32⟩
  | .hbm, ⟨63, _⟩ => ⟨S2048x16x64x64, .f32⟩
  | .hbm, ⟨64, _⟩ => ⟨S2048x16x64x64, .f32⟩
  | .hbm, ⟨65, _⟩ => ⟨S2048x16x64x32, .f32⟩
  | .hbm, ⟨66, _⟩ => ⟨S2048x64x16x32, .f32⟩
  | .hbm, ⟨67, _⟩ => ⟨S2048x64x512, .f32⟩
  | .hbm, ⟨68, _⟩ => ⟨S2048x64x512, .f32⟩
  | .hbm, ⟨69, _⟩ => ⟨S1x1x512, .f32⟩
  | .hbm, ⟨70, _⟩ => ⟨S2048x64x512, .f32⟩
  | .hbm, ⟨71, _⟩ => ⟨S2048x64x512, .f32⟩
  | .hbm, ⟨72, _⟩ => ⟨S8x16x16x8x8x512, .f32⟩
  | .hbm, ⟨73, _⟩ => ⟨S8x512x16x8x16x8, .f32⟩
  | .hbm, ⟨74, _⟩ => ⟨S8x512x128x128, .f32⟩
  | _, _ => ⟨S8x512x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c : Ref sig .tc := ⟨.hbm, 37, rfl⟩
abbrev main_v26 : Ref sig .tc := ⟨.hbm, 38, rfl⟩
abbrev main_v27 : Ref sig .tc := ⟨.hbm, 39, rfl⟩
abbrev main_c_0 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_1 : Ref sig .tc := ⟨.hbm, 51, rfl⟩
abbrev main_v38 : Ref sig .tc := ⟨.hbm, 52, rfl⟩
abbrev main_cst_2 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_3 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩

abbrev nD : Nat := 1
abbrev τ : Topo := Topo.v7x

variable {F : FTy → Type} [FloatOps F]

class Facts₀ : Prop where
  shapeCasts_S8x512x128x128_S8x512x16x8x16x8 : S8x512x128x128.ShapeCasts S8x512x16x8x16x8
  transposes_S8x512x16x8x16x8_S8x16x16x8x8x512_0_2_4_3_5_1 : S8x512x16x8x16x8.Transposes [0, 2, 4, 3, 5, 1] S8x16x16x8x8x512
  shapeCasts_S8x16x16x8x8x512_S2048x64x512 : S8x16x16x8x8x512.ShapeCasts S2048x64x512
  bcast_S512_S1x1x512_2 : S512.BroadcastsInDim S1x1x512 (![2] : Fin 1 → Fin S1x1x512.rank)
  bcast_S1x1x512_S2048x64x512_0_1_2 : S1x1x512.BroadcastsInDim S2048x64x512 (![0, 1, 2] : Fin 3 → Fin S2048x64x512.rank)
  bcast_S1024_S1x1x1024_2 : S1024.BroadcastsInDim S1x1x1024 (![2] : Fin 1 → Fin S1x1x1024.rank)
  bcast_S1x1x1024_S2048x64x1024_0_1_2 : S1x1x1024.BroadcastsInDim S2048x64x1024 (![0, 1, 2] : Fin 3 → Fin S2048x64x1024.rank)
  slices_S2048x64x1024_S2048x64x512_0_0_0 : S2048x64x1024.Slices ![0, 0, 0] S2048x64x512
  slices_S2048x64x1024_S2048x64x512_0_0_512 : S2048x64x1024.Slices ![0, 0, 512] S2048x64x512
  bcast_S_S2048x64x512 : S_.BroadcastsInDim S2048x64x512 (![] : Fin 0 → Fin S2048x64x512.rank)
  shapeCasts_S2048x64x512_S2048x64x16x32 : S2048x64x512.ShapeCasts S2048x64x16x32
  transposes_S2048x64x16x32_S2048x16x64x32_0_2_1_3 : S2048x64x16x32.Transposes [0, 2, 1, 3] S2048x16x64x32
  shapeCasts_S64x64_S4096 : S64x64.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  shapeCasts_S4096x16_S64x64x16 : S4096x16.ShapeCasts S64x64x16
  transposes_S64x64x16_S16x64x64_2_0_1 : S64x64x16.Transposes [2, 0, 1] S16x64x64
  bcast_S16x64x64_S1x16x64x64_1_2_3 : S16x64x64.BroadcastsInDim S1x16x64x64 (![1, 2, 3] : Fin 3 → Fin S1x16x64x64.rank)
  bcast_S1x16x64x64_S2048x16x64x64_0_1_2_3 : S1x16x64x64.BroadcastsInDim S2048x16x64x64 (![0, 1, 2, 3] : Fin 4 → Fin S2048x16x64x64.rank)
  reducesTo_S2048x16x64x64_S2048x16x64_d3 : S2048x16x64x64.ReducesTo [3] S2048x16x64
  h_S_ : 0 < S_.numel
  bcast_S_S2048x16x64 : S_.BroadcastsInDim S2048x16x64 (![] : Fin 0 → Fin S2048x16x64.rank)
  bcast_S2048x16x64_S2048x16x64x1_0_1_2 : S2048x16x64.BroadcastsInDim S2048x16x64x1 (![0, 1, 2] : Fin 3 → Fin S2048x16x64x1.rank)
  bcast_S2048x16x64x1_S2048x16x64x64_0_1_2_3 : S2048x16x64x1.BroadcastsInDim S2048x16x64x64 (![0, 1, 2, 3] : Fin 4 → Fin S2048x16x64x64.rank)
  transposes_S2048x16x64x32_S2048x64x16x32_0_2_1_3 : S2048x16x64x32.Transposes [0, 2, 1, 3] S2048x64x16x32
  shapeCasts_S2048x64x16x32_S2048x64x512 : S2048x64x16x32.ShapeCasts S2048x64x512
  shapeCasts_S2048x64x512_S8x16x16x8x8x512 : S2048x64x512.ShapeCasts S8x16x16x8x8x512
  transposes_S8x16x16x8x8x512_S8x512x16x8x16x8_0_5_1_3_2_4 : S8x16x16x8x8x512.Transposes [0, 5, 1, 3, 2, 4] S8x512x16x8x16x8
  shapeCasts_S8x512x16x8x16x8_S8x512x128x128 : S8x512x16x8x16x8.ShapeCasts S8x512x128x128
  dot_S2048x64x512_S512x512_S2048x64x512_2_1_01_0_n_n_wf : DotDims.WF S2048x64x512 S512x512 S2048x64x512 [2] [1] [0, 1] [0] [] []
  dot_S2048x64x512_S1024x512_S2048x64x1024_2_1_01_0_n_n_wf : DotDims.WF S2048x64x512 S1024x512 S2048x64x1024 [2] [1] [0, 1] [0] [] []
  dot_S2048x16x64x32_S2048x16x64x32_S2048x16x64x64_3_3_2_2_01_01_wf : DotDims.WF S2048x16x64x32 S2048x16x64x32 S2048x16x64x64 [3] [3] [2] [2] [0, 1] [0, 1]
  gather_S225x16_S4096x1_S4096x16_1_0_n_n_0_1_116_wf : GatherDims.WF S225x16 S4096x1 S4096x16 [1] [0] [] [0] [] 1 ![1, 16]
  dot_S2048x16x64x64_S2048x16x64x32_S2048x16x64x32_3_2_2_3_01_01_wf : DotDims.WF S2048x16x64x64 S2048x16x64x32 S2048x16x64x32 [3] [2] [2] [3] [0, 1] [0, 1]

variable [Facts₀]

def dot_S2048x64x512_S512x512_S2048x64x512_2_1_01_0_n_n : DotDims S2048x64x512 S512x512 S2048x64x512 where
  lhsContracting := [2]
  rhsContracting := [1]
  lhsNonContracting := [0, 1]
  rhsNonContracting := [0]
  lhsBatch := []
  rhsBatch := []
  wf := dot_S2048x64x512_S512x512_S2048x64x512_2_1_01_0_n_n_wf
def dot_S2048x64x512_S1024x512_S2048x64x1024_2_1_01_0_n_n : DotDims S2048x64x512 S1024x512 S2048x64x1024 where
  lhsContracting := [2]
  rhsContracting := [1]
  lhsNonContracting := [0, 1]
  rhsNonContracting := [0]
  lhsBatch := []
  rhsBatch := []
  wf := dot_S2048x64x512_S1024x512_S2048x64x1024_2_1_01_0_n_n_wf
def dot_S2048x16x64x32_S2048x16x64x32_S2048x16x64x64_3_3_2_2_01_01 : DotDims S2048x16x64x32 S2048x16x64x32 S2048x16x64x64 where
  lhsContracting := [3]
  rhsContracting := [3]
  lhsNonContracting := [2]
  rhsNonContracting := [2]
  lhsBatch := [0, 1]
  rhsBatch := [0, 1]
  wf := dot_S2048x16x64x32_S2048x16x64x32_S2048x16x64x64_3_3_2_2_01_01_wf
def gather_S225x16_S4096x1_S4096x16_1_0_n_n_0_1_116 : GatherDims S225x16 S4096x1 S4096x16 where
  offsetDims := [1]
  collapsedSliceDims := [0]
  operandBatchingDims := []
  startIndicesBatchingDims := []
  startIndexMap := [0]
  indexVectorDim := 1
  sliceSizes := ![1, 16]
  wf := gather_S225x16_S4096x1_S4096x16_1_0_n_n_0_1_116_wf
def dot_S2048x16x64x64_S2048x16x64x32_S2048x16x64x32_3_2_2_3_01_01 : DotDims S2048x16x64x64 S2048x16x64x32 S2048x16x64x32 where
  lhsContracting := [3]
  rhsContracting := [2]
  lhsNonContracting := [2]
  rhsNonContracting := [3]
  lhsBatch := [0, 1]
  rhsBatch := [0, 1]
  wf := dot_S2048x16x64x64_S2048x16x64x32_S2048x16x64x32_3_2_2_3_01_01_wf

class Facts : Prop extends Facts₀ where

variable [Facts]
-- ==== Proof.Spec.lean ====
/-
  Windowed multi-head attention over ONE window of 64 tokens and 512 channels, as plain functions of
  coordinates on the extended reals.

  A window holds two token tables x, y : 64 tokens × 512 channels. With weights given in their (out, in)
  orientation:
    q  = (x · Wqᵀ + bq) · scale,      k, v = the two halves of  y · Wkvᵀ + bkv,
  the 512 channels are read as 16 heads of 32 lanes (channel = head · 32 + lane), and per head
    score = q kᵀ + bias,  weights = softmax over the key token (maximum subtracted, exact quotient),
    context = weights · v,
  the heads are laid side by side again and projected:  out = merged · Woᵀ + bo.
  Every sum is a finite sum over a literal `Fin`; nothing here is evaluated.
-/
import Idealize.ShloMosaic.PureOps.Ideal
import Idealize.ShloMosaic.Lib.ValueIdx

noncomputable section

namespace Cert.WinAttn

open Idealize.ShloMosaic

/-- Channel `h · 32 + d` of the 512: lane `d` of head `h`. -/
def hd (h : Fin 16) (d : Fin 32) : Fin 512 := ⟨h.val * 32 + d.val, by have := h.isLt; have := d.isLt; omega⟩
/-- The same channel in the key half (the first 512) of the 1024 key/value channels. -/
def kch (h : Fin 16) (d : Fin 32) : Fin 1024 := ⟨h.val * 32 + d.val, by have := h.isLt; have := d.isLt; omega⟩
/-- The same channel in the value half (the last 512) of the 1024 key/value channels. -/
def vch (h : Fin 16) (d : Fin 32) : Fin 1024 := ⟨512 + (h.val * 32 + d.val), by have := h.isLt; have := d.isLt; omega⟩
/-- The head a channel belongs to, and its lane in it. -/
def headOf (e : Fin 512) : Fin 16 := ⟨e.val / 32, by have := e.isLt; omega⟩
def laneOf (e : Fin 512) : Fin 32 := ⟨e.val % 32, by omega⟩

/-! ## The attention core, over per-head queries, keys and values -/

section Core
variable (ninf : EReal) (Q K V : Fin 16 → Fin 64 → Fin 32 → EReal) (bias : Fin 16 → Fin 64 → Fin 64 → EReal)
  (Wo : Fin 512 → Fin 512 → EReal) (bo : Fin 512 → EReal)

/-- Query token `m` against key token `n` in head `h`, plus the position bias. -/
def score (h : Fin 16) (m n : Fin 64) : EReal := (∑ d : Fin 32, Q h m d * K h n d) + bias h m n
/-- The row's maximum over the key tokens, folded from `ninf`. -/
def rowMax (h : Fin 16) (m : Fin 64) : EReal :=
  (Finset.univ : Finset (Fin 64)).fold max ninf (fun n => score Q K bias h m n)
def ex (h : Fin 16) (m n : Fin 64) : EReal := Ideal.exp (score Q K bias h m n - rowMax ninf Q K bias h m)
def den (h : Fin 16) (m : Fin 64) : EReal := ∑ n : Fin 64, ex ninf Q K bias h m n
def wgt (h : Fin 16) (m n : Fin 64) : EReal := Ideal.div (ex ninf Q K bias h m n) (den ninf Q K bias h m)
/-- The weighted sum of the values. -/
def ctx (h : Fin 16) (m : Fin 64) (d : Fin 32) : EReal := ∑ n : Fin 64, wgt ninf Q K bias h m n * V h n d
/-- Heads side by side, then the output projection (weights in (out, in) orientation). -/
def attn (m : Fin 64) (c : Fin 512) : EReal :=
  (∑ e : Fin 512, ctx ninf Q K V bias (headOf e) m (laneOf e) * Wo c e) + bo c

end Core

/-! ## The three projections of a window's tokens -/

section Proj
variable (Wq : Fin 512 → Fin 512 → EReal) (bq : Fin 512 → EReal) (s : EReal)
  (Wkv : Fin 1024 → Fin 512 → EReal) (bkv : Fin 1024 → EReal)

def qOf (x : Fin 64 → Fin 512 → EReal) (h : Fin 16) (m : Fin 64) (d : Fin 32) : EReal :=
  ((∑ c : Fin 512, x m c * Wq (hd h d) c) + bq (hd h d)) * s
def kOf (y : Fin 64 → Fin 512 → EReal) (h : Fin 16) (n : Fin 64) (d : Fin 32) : EReal :=
  (∑ c : Fin 512, y n c * Wkv (kch h d) c) + bkv (kch h d)
def vOf (y : Fin 64 → Fin 512 → EReal) (h : Fin 16) (n : Fin 64) (d : Fin 32) : EReal :=
  (∑ c : Fin 512, y n c * Wkv (vch h d) c) + bkv (vch h d)

end Proj

/-- Everything that does not depend on the window. -/
structure Params where
  Wq : Fin 512 → Fin 512 → EReal
  bq : Fin 512 → EReal
  Wkv : Fin 1024 → Fin 512 → EReal
  bkv : Fin 1024 → EReal
  Wo : Fin 512 → Fin 512 → EReal
  bo : Fin 512 → EReal
  bias : Fin 16 → Fin 64 → Fin 64 → EReal
  scale : EReal
  ninf : EReal

/-- One window's output, token `m`, channel `c`. -/
def out (P : Params) (x y : Fin 64 → Fin 512 → EReal) (m : Fin 64) (c : Fin 512) : EReal :=
  attn P.ninf (qOf P.Wq P.bq P.scale x) (kOf P.Wkv P.bkv y) (vOf P.Wkv P.bkv y) P.bias P.Wo P.bo m c

/-! ## Windows of an image -/

/-- Token `m = 8·i + j` of the window at window-row `r1`, window-column `r2` is the pixel `(8·r1 + i, 8·r2 + j)`. -/
def tokRow (r1 : Fin 16) (m : Fin 64) : Fin 128 := ⟨r1.val * 8 + m.val / 8, by have := r1.isLt; have := m.isLt; omega⟩
def tokCol (r2 : Fin 16) (m : Fin 64) : Fin 128 := ⟨r2.val * 8 + m.val % 8, by have := r2.isLt; omega⟩
/-- The window a pixel coordinate lies in, and its offset inside it. -/
def winOf (p : Fin 128) : Fin 16 := ⟨p.val / 8, by have := p.isLt; omega⟩
def offOf (p : Fin 128) : Fin 8 := ⟨p.val % 8, by omega⟩
/-- The row of token `m` inside its window. -/
def rowIn (m : Fin 64) : Fin 8 := ⟨m.val / 8, by have := m.isLt; omega⟩
/-- Window `t` of 16 and head `h` of 16 as one batch index of 256. -/
def bh (t h : Fin 16) : Fin 256 := ⟨t.val * 16 + h.val, by have := t.isLt; have := h.isLt; omega⟩
/-- Image `b`, window-row `r1`, window-column `r2` as one window index of 2048. -/
def win (b : Fin 8) (r1 r2 : Fin 16) : Fin 2048 :=
  ⟨(b.val * 16 + r1.val) * 16 + r2.val, by have := b.isLt; have := r1.isLt; have := r2.isLt; omega⟩
/-- The token of a pixel at offsets `(i, j)` inside its window. -/
def tokOf (i j : Fin 8) : Fin 64 := ⟨i.val * 8 + j.val, by have := i.isLt; have := j.isLt; omega⟩

/-! ## The whole result, pixel by pixel -/

/-- An image batch `[8, 512, 128, 128]`: image, channel, row, column. -/
abbrev Img : Type := (⟨4, ![8, 512, 128, 128]⟩ : Shape).Idx → EReal

/-- The token table of window `(b, r1, r2)` of an image batch: token `m`, channel `c` is the pixel
    `(b, c, 8·r1 + m / 8, 8·r2 + m % 8)`. -/
def imgTok (x : Img) (b : Fin 8) (r1 r2 : Fin 16) (m : Fin 64) (c : Fin 512) : EReal :=
  x (ValueIdx.ix4 b c (tokRow r1 m) (tokCol r2 m))

/-- The window-independent data from the argument arrays, each weight in its own (out, in) orientation, and the two
    float words the programs share (the query scale and the fold's start), never evaluated. -/
def params (Wq : (⟨2, ![512, 512]⟩ : Shape).Idx → EReal) (bq : (⟨1, ![512]⟩ : Shape).Idx → EReal)
    (Wkv : (⟨2, ![1024, 512]⟩ : Shape).Idx → EReal) (bkv : (⟨1, ![1024]⟩ : Shape).Idx → EReal)
    (Wo : (⟨2, ![512, 512]⟩ : Shape).Idx → EReal) (bo : (⟨1, ![512]⟩ : Shape).Idx → EReal)
    (bias : (⟨3, ![16, 64, 64]⟩ : Shape).Idx → EReal) : Params where
  Wq := fun o c => Wq (ValueIdx.ix2 o c)
  bq := fun o => bq (ValueIdx.ix1 o)
  Wkv := fun o c => Wkv (ValueIdx.ix2 o c)
  bkv := fun o => bkv (ValueIdx.ix1 o)
  Wo := fun c e => Wo (ValueIdx.ix2 c e)
  bo := fun c => bo (ValueIdx.ix1 c)
  bias := fun h m n => bias (ValueIdx.ix3 h m n)
  scale := Ideal.ofBits .f32 0x3E3504F3#32
  ninf := Ideal.ofBits .f32 0xFF800000#32

/-- The result at pixel `(b, c, hh, ww)`: the output of the window the pixel lies in, at the pixel's token. -/
def pix (P : Params) (xa xb : Img) (b : Fin 8) (c : Fin 512) (hh ww : Fin 128) : EReal :=
  out P (imgTok xa b (winOf hh) (winOf ww)) (imgTok xb b (winOf hh) (winOf ww)) (tokOf (offOf hh) (offOf ww)) c

/-- The whole result as one function of the argument arrays. -/
def G (P : Params) (xa xb : Img) : Img := fun i =>
  pix P xa xb ⟨(i 0).val, (i 0).isLt⟩ ⟨(i 1).val, (i 1).isLt⟩ ⟨(i 2).val, (i 2).isLt⟩ ⟨(i 3).val, (i 3).isLt⟩

theorem G_ix4 (P : Params) (xa xb : Img) (b : Fin 8) (c : Fin 512) (hh ww : Fin 128) :
    G P xa xb (ValueIdx.ix4 b c hh ww) = pix P xa xb b c hh ww := rfl

end Cert.WinAttn

end
-- ==== Proof.KProj.lean ====
/-
  The three projections inside the kernel body, read at an index.

  A staged block is 8 image rows of all 128 columns, `[1, 512, 8, 128]`; the body re-lays it as 16 windows of
  64 tokens (token `m = 8·i + j` of window `t` is the pixel `(i, 8·t + j)`), multiplies by the transposed
  weights and adds the bias. Read at an index, each projection is the window's token row against one weight row.
-/
import proofs.«425595_j7851200217267_3_alg».proof.Proof.Gen.KernelIdeal.Skeleton
import proofs.«425595_j7851200217267_3_alg».proof.Proof.Spec
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.WinAttn

/-- The token table of window `t` of a staged block: token `m = 8·i + j`, channel `c` is the block at `(0, c, i, 8·t + j)`. -/
def blkTok (x : Vec Ideal S1x512x8x128 .f32) (t : Fin 16) (m : Fin 64) (c : Fin 512) : EReal :=
  x (ix4 (0 : Fin 1) c (rowIn m) (tokCol t m))

/-- Row `64·t + m` of the 1024 rows of the re-laid token matrix: token `m` of window `t`. -/
def rowOf (t : Fin 16) (m : Fin 64) : Fin 1024 := ⟨t.val * 64 + m.val, by have := t.isLt; have := m.isLt; omega⟩

/-! ## The layout operations, each chain read at an index -/

section Layout

/-- The re-laid token matrix `[1024, 512]` at `(64·t + m, c)` is the staged block at `(0, c, m / 8, 8·t + m % 8)`:
    the unit axis dropped, the 128 columns read as 16 windows of 8, the window axis brought to the front and the
    channel axis to the back, row and column offset merged into the token, windows and tokens merged into rows.
    The change of float format in between is the identity on the extended reals. -/
theorem relaid_apply (x : Vec Ideal S1x512x8x128 .f32)
    (h1 : S1x512x8x128.ShapeCasts S512x8x128) (hlt : FTy.bits .bf16 < FTy.bits .f32)
    (h2 : S512x8x128.ShapeCasts S512x8x16x8)
    (h3 : S512x8x16x8.Transposes [2, 1, 3, 0] S16x8x8x512) (h4 : S16x8x8x512.ShapeCasts S16x64x512)
    (h5 : S16x64x512.ShapeCasts S1024x512) (t : Fin 16) (m : Fin 64) (c : Fin 512) :
    shapeCast S1024x512 (shapeCast S16x64x512 (transpose S16x8x8x512 [2, 1, 3, 0]
        (shapeCast S512x8x16x8 (truncf (F := Ideal) .bf16 (shapeCast S512x8x128 x h1) hlt) h2) h3) h4) h5 (ix2 (rowOf t m) c)
      = blkTok x t m c := by
  have ht := t.isLt
  have hm := m.isLt
  have hc := c.isLt
  -- rows back to (window, token)
  refine (shapeCast_apply _ _ _ (ix3 t m c)
    (by rw [Shape.rowMajor_val_three, Shape.rowMajor_val_two]
        show (t.val * 64 + m.val) * 512 + c.val = (t.val * 64 + m.val) * 512 + c.val
        rfl)).trans ?_
  -- the token back to (row in the window, column offset)
  refine (shapeCast_apply _ _ _ (ix4 t (rowIn m) (⟨m.val % 8, Nat.mod_lt _ (by decide)⟩ : Fin 8) c)
    (by rw [Shape.rowMajor_val_four, Shape.rowMajor_val_three]
        show ((t.val * 8 + m.val / 8) * 8 + m.val % 8) * 512 + c.val = (t.val * 64 + m.val) * 512 + c.val
        omega)).trans ?_
  -- the transpose: result axes (window, row, offset, channel) are source axes 2, 1, 3, 0
  refine (transpose_apply _ _ _ _ (ix4 c (rowIn m) t (⟨m.val % 8, Nat.mod_lt _ (by decide)⟩ : Fin 8))
    (fun b => match b with | ⟨0, _⟩ => rfl | ⟨1, _⟩ => rfl | ⟨2, _⟩ => rfl | ⟨3, _⟩ => rfl)).trans ?_
  -- 16 windows of 8 columns back to the 128 columns
  refine (shapeCast_apply _ _ _ (ix3 c (rowIn m) (tokCol t m))
    (by rw [Shape.rowMajor_val_three, Shape.rowMajor_val_four]
        show (c.val * 8 + m.val / 8) * 128 + (t.val * 8 + m.val % 8) = ((c.val * 8 + m.val / 8) * 16 + t.val) * 8 + m.val % 8
        omega)).trans ?_
  -- the change of format, then the unit axis
  refine (truncf_apply (φ := .f32) (ψ := .bf16) _ _ _).trans ?_
  exact shapeCast_apply _ _ _ (ix4 (0 : Fin 1) c (rowIn m) (tokCol t m))
    (by rw [Shape.rowMajor_val_four, Shape.rowMajor_val_three]
        show ((0 * 512 + c.val) * 8 + m.val / 8) * 128 + (t.val * 8 + m.val % 8) = (c.val * 8 + m.val / 8) * 128 + (t.val * 8 + m.val % 8)
        omega)

variable {α : Type}

/-- The 1024 rows read as 16 windows of 64 tokens, 512 columns. -/
theorem rowsQ_apply (z : S1024x512.Idx → α) (h : S1024x512.ShapeCasts S16x64x512) (t : Fin 16) (m : Fin 64) (c : Fin 512) :
    shapeCast S16x64x512 z h (ix3 t m c) = z (ix2 (rowOf t m) c) :=
  shapeCast_apply _ _ _ (ix2 (rowOf t m) c)
    (by rw [Shape.rowMajor_val_two, Shape.rowMajor_val_three]
        show (t.val * 64 + m.val) * 512 + c.val = (t.val * 64 + m.val) * 512 + c.val
        rfl)

/-- The 1024 rows read as 16 windows of 64 tokens, 1024 columns. -/
theorem rowsKV_apply (z : S1024x1024.Idx → α) (h : S1024x1024.ShapeCasts S16x64x1024) (t : Fin 16) (m : Fin 64) (c : Fin 1024) :
    shapeCast S16x64x1024 z h (ix3 t m c) = z (ix2 (rowOf t m) c) :=
  shapeCast_apply _ _ _ (ix2 (rowOf t m) c)
    (by rw [Shape.rowMajor_val_two, Shape.rowMajor_val_three]
        show (t.val * 64 + m.val) * 1024 + c.val = (t.val * 64 + m.val) * 1024 + c.val
        rfl)

/-- The 512 channels read as 16 heads of 32 lanes: `(t, n, h, d)` is channel `32·h + d`. -/
theorem lanes_apply (y : S16x64x512.Idx → α) (hA : S16x64x512.ShapeCasts S16x64x16x32) (t : Fin 16) (n : Fin 64) (h : Fin 16) (d : Fin 32) :
    shapeCast S16x64x16x32 y hA (ix4 t n h d) = y (ix3 t n (hd h d)) := by
  have ht := t.isLt
  have hn := n.isLt
  have hh := h.isLt
  have hdd := d.isLt
  exact shapeCast_apply _ _ _ (ix3 t n (hd h d))
    (by rw [Shape.rowMajor_val_three, Shape.rowMajor_val_four]
        show (t.val * 64 + n.val) * 512 + (h.val * 32 + d.val) = ((t.val * 64 + n.val) * 16 + h.val) * 32 + d.val
        omega)

/-- The head axis brought in front of the token axis and merged with the window: batch `16·t + h`, token `m`, lane `d`
    is `(t, m, h, d)`. -/
theorem heads_apply (w : S16x64x16x32.Idx → α) (hB : S16x64x16x32.Transposes [0, 2, 1, 3] S16x16x64x32)
    (hC : S16x16x64x32.ShapeCasts S256x64x32) (t h : Fin 16) (m : Fin 64) (d : Fin 32) :
    shapeCast S256x64x32 (transpose S16x16x64x32 [0, 2, 1, 3] w hB) hC (ix3 (bh t h) m d) = w (ix4 t m h d) := by
  refine (shapeCast_apply _ _ _ (ix4 t h m d)
    (by rw [Shape.rowMajor_val_four, Shape.rowMajor_val_three]
        show ((t.val * 16 + h.val) * 64 + m.val) * 32 + d.val = ((t.val * 16 + h.val) * 64 + m.val) * 32 + d.val
        rfl)).trans ?_
  exact transpose_apply _ _ _ _ (ix4 t m h d)
    (fun b => match b with | ⟨0, _⟩ => rfl | ⟨1, _⟩ => rfl | ⟨2, _⟩ => rfl | ⟨3, _⟩ => rfl)

/-- The first 512 of the 1024 key/value channels. -/
theorem keyHalf_apply (y : S16x64x1024.Idx → α) (hs : S16x64x1024.Slices ![0, 0, 0] S16x64x512) (t : Fin 16) (n : Fin 64) (h : Fin 16) (d : Fin 32) :
    extractStridedSlice S16x64x512 ![0, 0, 0] y hs (ix3 t n (hd h d)) = y (ix3 t n (kch h d)) :=
  extractStridedSlice_apply _ _ _ _ (ix3 t n (kch h d)) (fun a => match a with
    | ⟨0, _⟩ => by show t.val = 0 + t.val; omega
    | ⟨1, _⟩ => by show n.val = 0 + n.val; omega
    | ⟨2, _⟩ => by show h.val * 32 + d.val = 0 + (h.val * 32 + d.val); omega)

/-- The last 512 of the 1024 key/value channels. -/
theorem valueHalf_apply (y : S16x64x1024.Idx → α) (hs : S16x64x1024.Slices ![0, 0, 512] S16x64x512) (t : Fin 16) (n : Fin 64) (h : Fin 16) (d : Fin 32) :
    extractStridedSlice S16x64x512 ![0, 0, 512] y hs (ix3 t n (hd h d)) = y (ix3 t n (vch h d)) :=
  extractStridedSlice_apply _ _ _ _ (ix3 t n (vch h d)) (fun a => match a with
    | ⟨0, _⟩ => by show t.val = 0 + t.val; omega
    | ⟨1, _⟩ => by show n.val = 0 + n.val; omega
    | ⟨2, _⟩ => by show 512 + (h.val * 32 + d.val) = 512 + (h.val * 32 + d.val); rfl)

end Layout

/-! ## A product with bias, read at a row and an output -/

section Proj

/-- Left operand, axis 0 (rows): the result's row. -/
theorem lhsQ_0 (j : S1024x512.Idx) (q : dot_S1024x512_S512x512_S1024x512_1_0_0_1_n_n.contr.Idx) :
    (dot_S1024x512_S512x512_S1024x512_1_0_0_1_n_n.lhsIdx j q 0).val = (j 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
/-- Left operand, axis 1 (channels): the contraction position. -/
theorem lhsQ_1 (j : S1024x512.Idx) (q : dot_S1024x512_S512x512_S1024x512_1_0_0_1_n_n.contr.Idx) :
    (dot_S1024x512_S512x512_S1024x512_1_0_0_1_n_n.lhsIdx j q 1).val = (q ⟨0, by decide⟩).val :=
  dot_S1024x512_S512x512_S1024x512_1_0_0_1_n_n.lhsIdx_val_of_single rfl j q
/-- Right operand, axis 0 (channels): the contraction position. -/
theorem rhsQ_0 (j : S1024x512.Idx) (q : dot_S1024x512_S512x512_S1024x512_1_0_0_1_n_n.contr.Idx) :
    (dot_S1024x512_S512x512_S1024x512_1_0_0_1_n_n.rhsIdx j q 0).val = (q ⟨0, by decide⟩).val :=
  dot_S1024x512_S512x512_S1024x512_1_0_0_1_n_n.rhsIdx_val_of_single rfl j q
/-- Right operand, axis 1 (outputs): the result's column. -/
theorem rhsQ_1 (j : S1024x512.Idx) (q : dot_S1024x512_S512x512_S1024x512_1_0_0_1_n_n.contr.Idx) :
    (dot_S1024x512_S512x512_S1024x512_1_0_0_1_n_n.rhsIdx j q 1).val = (j 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The query projection before its scaling: the product into the zero accumulator plus the bias
    broadcast along the rows, at row `r` and output `o`, is the row of the left operand against column `o` of the weights, plus
    the bias at `o`. -/
theorem projQ_apply (A : FVec Ideal S1024x512 .bf16) (W : FVec Ideal S512x512 .bf16) (b : FVec Ideal S512 .f32)
    (hW : S512x512.ShapeCasts S512x512) (hb : S512.ShapeCasts S1x512) (hbb : S1x512.Broadcasts S1024x512) (r : Fin 1024) (o : Fin 512) :
    addf (matmul dot_S1024x512_S512x512_S1024x512_1_0_0_1_n_n none A (shapeCast S512x512 W hW) (constant (F := Ideal) S1024x512 .f32 0x00000000#32))
        (broadcastTo S1024x512 (shapeCast S1x512 b hb) hbb) (ix2 r o)
      = (∑ c : Fin 512, A (ix2 r c) * W (ix2 c o)) + b (ix1 o) := by
  rw [addf_apply, shapeCast_self]
  congr 1
  · simp only [matmul]
    rw [Ideal.matmul_constant_zero_apply, ← Equiv.sum_comp (contrEquiv1 dot_S1024x512_S512x512_S1024x512_1_0_0_1_n_n 512 rfl rfl).symm]
    refine Finset.sum_congr rfl fun k _ => ?_
    have hk := contrEquiv1_symm_val dot_S1024x512_S512x512_S1024x512_1_0_0_1_n_n 512 rfl rfl k
    have el : dot_S1024x512_S512x512_S1024x512_1_0_0_1_n_n.lhsIdx (ix2 r o) ((contrEquiv1 dot_S1024x512_S512x512_S1024x512_1_0_0_1_n_n 512 rfl rfl).symm k) = ix2 r k := funext fun a => Fin.ext (by
      match a with
      | ⟨0, _⟩ => exact lhsQ_0 _ _
      | ⟨1, _⟩ => exact (lhsQ_1 _ _).trans hk)
    have er : dot_S1024x512_S512x512_S1024x512_1_0_0_1_n_n.rhsIdx (ix2 r o) ((contrEquiv1 dot_S1024x512_S512x512_S1024x512_1_0_0_1_n_n 512 rfl rfl).symm k) = ix2 k o := funext fun a => Fin.ext (by
      match a with
      | ⟨0, _⟩ => exact (rhsQ_0 _ _).trans hk
      | ⟨1, _⟩ => exact rhsQ_1 _ _)
    rw [el, er]
  · refine (broadcastTo_apply _ _ _ (ix2 (0 : Fin 1) o) (fun a => match a with
      | ⟨0, _⟩ => by show (0 : Nat) = if (1 : Nat) = 1 then 0 else _; rw [if_pos rfl]
      | ⟨1, _⟩ => by show o.val = if (512 : Nat) = 1 then 0 else o.val; rw [if_neg (by decide)])).trans ?_
    exact shapeCast_apply _ _ _ (ix1 o)
      (by rw [Shape.rowMajor_val_one, Shape.rowMajor_val_two]
          show o.val = 0 * 512 + o.val
          omega)

/-- Left operand, axis 0 (rows): the result's row. -/
theorem lhsKV_0 (j : S1024x1024.Idx) (q : dot_S1024x512_S512x1024_S1024x1024_1_0_0_1_n_n.contr.Idx) :
    (dot_S1024x512_S512x1024_S1024x1024_1_0_0_1_n_n.lhsIdx j q 0).val = (j 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
/-- Left operand, axis 1 (channels): the contraction position. -/
theorem lhsKV_1 (j : S1024x1024.Idx) (q : dot_S1024x512_S512x1024_S1024x1024_1_0_0_1_n_n.contr.Idx) :
    (dot_S1024x512_S512x1024_S1024x1024_1_0_0_1_n_n.lhsIdx j q 1).val = (q ⟨0, by decide⟩).val :=
  dot_S1024x512_S512x1024_S1024x1024_1_0_0_1_n_n.lhsIdx_val_of_single rfl j q
/-- Right operand, axis 0 (channels): the contraction position. -/
theorem rhsKV_0 (j : S1024x1024.Idx) (q : dot_S1024x512_S512x1024_S1024x1024_1_0_0_1_n_n.contr.Idx) :
    (dot_S1024x512_S512x1024_S1024x1024_1_0_0_1_n_n.rhsIdx j q 0).val = (q ⟨0, by decide⟩).val :=
  dot_S1024x512_S512x1024_S1024x1024_1_0_0_1_n_n.rhsIdx_val_of_single rfl j q
/-- Right operand, axis 1 (outputs): the result's column. -/
theorem rhsKV_1 (j : S1024x1024.Idx) (q : dot_S1024x512_S512x1024_S1024x1024_1_0_0_1_n_n.contr.Idx) :
    (dot_S1024x512_S512x1024_S1024x1024_1_0_0_1_n_n.rhsIdx j q 1).val = (j 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The key/value projection: the product into the zero accumulator plus the bias
    broadcast along the rows, at row `r` and output `o`, is the row of the left operand against column `o` of the weights, plus
    the bias at `o`. -/
theorem projKV_apply (A : FVec Ideal S1024x512 .bf16) (W : FVec Ideal S512x1024 .bf16) (b : FVec Ideal S1024 .f32)
    (hW : S512x1024.ShapeCasts S512x1024) (hb : S1024.ShapeCasts S1x1024) (hbb : S1x1024.Broadcasts S1024x1024) (r : Fin 1024) (o : Fin 1024) :
    addf (matmul dot_S1024x512_S512x1024_S1024x1024_1_0_0_1_n_n none A (shapeCast S512x1024 W hW) (constant (F := Ideal) S1024x1024 .f32 0x00000000#32))
        (broadcastTo S1024x1024 (shapeCast S1x1024 b hb) hbb) (ix2 r o)
      = (∑ c : Fin 512, A (ix2 r c) * W (ix2 c o)) + b (ix1 o) := by
  rw [addf_apply, shapeCast_self]
  congr 1
  · simp only [matmul]
    rw [Ideal.matmul_constant_zero_apply, ← Equiv.sum_comp (contrEquiv1 dot_S1024x512_S512x1024_S1024x1024_1_0_0_1_n_n 512 rfl rfl).symm]
    refine Finset.sum_congr rfl fun k _ => ?_
    have hk := contrEquiv1_symm_val dot_S1024x512_S512x1024_S1024x1024_1_0_0_1_n_n 512 rfl rfl k
    have el : dot_S1024x512_S512x1024_S1024x1024_1_0_0_1_n_n.lhsIdx (ix2 r o) ((contrEquiv1 dot_S1024x512_S512x1024_S1024x1024_1_0_0_1_n_n 512 rfl rfl).symm k) = ix2 r k := funext fun a => Fin.ext (by
      match a with
      | ⟨0, _⟩ => exact lhsKV_0 _ _
      | ⟨1, _⟩ => exact (lhsKV_1 _ _).trans hk)
    have er : dot_S1024x512_S512x1024_S1024x1024_1_0_0_1_n_n.rhsIdx (ix2 r o) ((contrEquiv1 dot_S1024x512_S512x1024_S1024x1024_1_0_0_1_n_n 512 rfl rfl).symm k) = ix2 k o := funext fun a => Fin.ext (by
      match a with
      | ⟨0, _⟩ => exact (rhsKV_0 _ _).trans hk
      | ⟨1, _⟩ => exact rhsKV_1 _ _)
    rw [el, er]
  · refine (broadcastTo_apply _ _ _ (ix2 (0 : Fin 1) o) (fun a => match a with
      | ⟨0, _⟩ => by show (0 : Nat) = if (1 : Nat) = 1 then 0 else _; rw [if_pos rfl]
      | ⟨1, _⟩ => by show o.val = if (1024 : Nat) = 1 then 0 else o.val; rw [if_neg (by decide)])).trans ?_
    exact shapeCast_apply _ _ _ (ix1 o)
      (by rw [Shape.rowMajor_val_one, Shape.rowMajor_val_two]
          show o.val = 0 * 1024 + o.val
          omega)

end Proj

/-! ## The three projections -/

/-- The key/value projection as `[16, 64, 1024]`: window `t`, token `n`, output `o` is the token's row of the window's table
    against column `o` of the weights, plus the bias at `o`. -/
theorem pay1_apply (x1 : Vec Ideal S1x512x8x128 .f32) (w : Vec Ideal S512x1024 .bf16) (b : Vec Ideal S1024 .f32)
    (t : Fin 16) (n : Fin 64) (o : Fin 1024) :
    k0_pay1 (F := Ideal) x1 w b (ix3 t n o) = (∑ c : Fin 512, blkTok x1 t n c * w (ix2 c o)) + b (ix1 o) := by
  unfold k0_pay1
  refine (rowsKV_apply _ _ t n o).trans ?_
  refine (projKV_apply _ w b _ _ _ (rowOf t n) o).trans ?_
  exact congrArg (· + b (ix1 o)) (Finset.sum_congr rfl fun c _ =>
    congrArg (· * w (ix2 c o)) (relaid_apply x1 _ _ _ _ _ _ t n c))

/-- The scaled query projection, already split into heads: batch `16·t + h`, token `m`, lane `d`. -/
theorem pay3_apply (x0 : Vec Ideal S1x512x8x128 .f32) (w : Vec Ideal S512x512 .bf16) (b : Vec Ideal S512 .f32)
    (t h : Fin 16) (m : Fin 64) (d : Fin 32) :
    k0_pay3 (F := Ideal) x0 w b (ix3 (bh t h) m d)
      = qOf (fun o c => w (ix2 c o)) (fun o => b (ix1 o)) (Ideal.ofBits .f32 0x3E3504F3#32) (blkTok x0 t) h m d := by
  unfold k0_pay3
  -- the head split, the change of format, the rows
  refine (heads_apply _ _ _ t h m d).trans ?_
  refine (lanes_apply _ _ t m h d).trans ?_
  refine (truncf_apply (φ := .f32) (ψ := .bf16) _ _ _).trans ?_
  refine (rowsQ_apply _ _ t m (hd h d)).trans ?_
  -- the scaling by the splat, then the product with bias
  refine (mulf_apply _ _ _).trans ?_
  unfold qOf
  refine congrArg₂ (· * ·) ?_ rfl
  refine (projQ_apply _ w b _ _ _ (rowOf t m) (hd h d)).trans ?_
  exact congrArg (· + b (ix1 (hd h d))) (Finset.sum_congr rfl fun c _ =>
    congrArg (· * w (ix2 c (hd h d))) (relaid_apply x0 _ _ _ _ _ _ t m c))

/-- The key half of the key/value projection, as `[16, 64, 16, 32]` = (window, token, head, lane). -/
theorem pay4_apply (x1 : Vec Ideal S1x512x8x128 .f32) (w : Vec Ideal S512x1024 .bf16) (b : Vec Ideal S1024 .f32)
    (t : Fin 16) (n : Fin 64) (h : Fin 16) (d : Fin 32) :
    k0_pay4 (F := Ideal) x1 w b (ix4 t n h d)
      = kOf (fun o c => w (ix2 c o)) (fun o => b (ix1 o)) (blkTok x1 t) h n d := by
  unfold k0_pay4
  refine (lanes_apply _ _ t n h d).trans ?_
  refine (truncf_apply (φ := .f32) (ψ := .bf16) _ _ _).trans ?_
  refine (keyHalf_apply _ _ t n h d).trans ?_
  exact pay1_apply x1 w b t n (kch h d)

/-- The value half, as `[16, 64, 512]` = (window, token, channel `32·h + d`). -/
theorem pay2_apply (x1 : Vec Ideal S1x512x8x128 .f32) (w : Vec Ideal S512x1024 .bf16) (b : Vec Ideal S1024 .f32)
    (t : Fin 16) (n : Fin 64) (h : Fin 16) (d : Fin 32) :
    k0_pay2 (F := Ideal) x1 w b (ix3 t n (hd h d))
      = vOf (fun o c => w (ix2 c o)) (fun o => b (ix1 o)) (blkTok x1 t) h n d := by
  unfold k0_pay2
  refine (truncf_apply (φ := .f32) (ψ := .bf16) _ _ _).trans ?_
  refine (valueHalf_apply _ _ t n h d).trans ?_
  exact pay1_apply x1 w b t n (vch h d)

end Cert.KernelIdeal.Pay

end
-- ==== Proof.KCore.lean ====
/-
  The attention core and the output projection inside the kernel body, read at an index of the stored block.

  The stored block is `[1, 512, 8, 128]`: channel `c`, row `i`, column `wc`. Column `wc` lies in window
  `wc / 8` at offset `wc % 8`, so the entry is token `8·i + wc % 8`, channel `c` of that window's attention
  output — over the per-head queries, keys and values the body was handed, whatever they are.
-/
import proofs.«425595_j7851200217267_3_alg».proof.Proof.Gen.KernelIdeal.Skeleton
import proofs.«425595_j7851200217267_3_alg».proof.Proof.Spec
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.WinAttn

/-! The stretches of the payload, one lemma each, kept in a namespace of their own. -/
namespace Core

/-! ## Index names -/

/-- Row `64·t + m` of a `[1024, 512]` table: token `m` of window `t`. -/
def storedRow (t : Fin 16) (m : Fin 64) : Fin 1024 := ⟨t.val * 64 + m.val, by have := t.isLt; have := m.isLt; omega⟩

/-! ## The layout stretches, each over an arbitrary vector of the literal shape -/

/-- The stored block `[1, 512, 8, 128]` at `(0, c, i, wc)` is the `[1024, 512]` table at the row of token
    `8·i + wc % 8` of window `wc / 8`, column `c`. -/
theorem store_apply {α : Type} (X : S1024x512.Idx → α)
    (h1 : S1024x512.ShapeCasts S16x64x512) (h2 : S16x64x512.ShapeCasts S16x8x8x512)
    (h3 : S16x8x8x512.Transposes [3, 1, 0, 2] S512x8x16x8) (h4 : S512x8x16x8.ShapeCasts S512x8x128)
    (h5 : S512x8x128.ShapeCasts S1x512x8x128) (c : Fin 512) (i : Fin 8) (wc : Fin 128) :
    shapeCast S1x512x8x128 (shapeCast S512x8x128 (transpose S512x8x16x8 [3, 1, 0, 2]
      (shapeCast S16x8x8x512 (shapeCast S16x64x512 X h1) h2) h3) h4) h5 (ix4 (0 : Fin 1) c i wc)
      = X (ix2 (storedRow (winOf wc) (tokOf i (offOf wc))) c) := by
  have hi := i.isLt; have hw := wc.isLt; have hc := c.isLt
  -- [1,512,8,128] at (0, c, i, wc) reads [512,8,128] at (c, i, wc)
  refine (shapeCast_apply _ h5 _ (ix3 c i wc) (by
    rw [Shape.rowMajor_val_three, Shape.rowMajor_val_four]
    show (c.val * 8 + i.val) * 128 + wc.val = (((0 : Nat) * 512 + c.val) * 8 + i.val) * 128 + wc.val
    omega)).trans ?_
  -- [512,8,128] at (c, i, wc) reads [512,8,16,8] at (c, i, wc / 8, wc % 8)
  refine (shapeCast_apply _ h4 _ (ix4 c i (winOf wc) (offOf wc)) (by
    rw [Shape.rowMajor_val_four, Shape.rowMajor_val_three]
    show ((c.val * 8 + i.val) * 16 + wc.val / 8) * 8 + wc.val % 8 = (c.val * 8 + i.val) * 128 + wc.val
    omega)).trans ?_
  -- the transpose [3,1,0,2]: reads [16,8,8,512] at (wc / 8, i, wc % 8, c)
  refine (transpose_apply _ _ h3 _ (ix4 (winOf wc) i (offOf wc) c) (fun b => match b with
    | ⟨0, _⟩ => rfl | ⟨1, _⟩ => rfl | ⟨2, _⟩ => rfl | ⟨3, _⟩ => rfl)).trans ?_
  -- [16,8,8,512] reads [16,64,512] at (wc / 8, 8·i + wc % 8, c)
  refine (shapeCast_apply _ h2 _ (ix3 (winOf wc) (tokOf i (offOf wc)) c) (by
    rw [Shape.rowMajor_val_three, Shape.rowMajor_val_four]
    show (wc.val / 8 * 64 + (i.val * 8 + wc.val % 8)) * 512 + c.val
      = ((wc.val / 8 * 8 + i.val) * 8 + wc.val % 8) * 512 + c.val
    omega)).trans ?_
  -- [16,64,512] reads [1024,512] at (64·(wc / 8) + 8·i + wc % 8, c)
  exact shapeCast_apply _ h1 _ (ix2 (storedRow (winOf wc) (tokOf i (offOf wc))) c) (by
    rw [Shape.rowMajor_val_two, Shape.rowMajor_val_three]
    rfl)

/-- The merged heads `[1024, 512]` at (row of token `m` of window `t`, channel `e`) are the per-head table
    `[256, 64, 32]` at (batch `16·t + e / 32`, token `m`, lane `e % 32`). -/
theorem merge_apply {α : Type} (Y : S256x64x32.Idx → α)
    (h1 : S256x64x32.ShapeCasts S16x16x64x32) (h2 : S16x16x64x32.Transposes [0, 2, 1, 3] S16x64x16x32)
    (h3 : S16x64x16x32.ShapeCasts S16x64x512) (h4 : S16x64x512.ShapeCasts S1024x512)
    (t : Fin 16) (m : Fin 64) (e : Fin 512) :
    shapeCast S1024x512 (shapeCast S16x64x512 (transpose S16x64x16x32 [0, 2, 1, 3]
      (shapeCast S16x16x64x32 Y h1) h2) h3) h4 (ix2 (storedRow t m) e)
      = Y (ix3 (bh t (headOf e)) m (laneOf e)) := by
  have ht := t.isLt; have hm := m.isLt; have he := e.isLt
  refine (shapeCast_apply _ h4 _ (ix3 t m e) (by
    rw [Shape.rowMajor_val_three, Shape.rowMajor_val_two]
    rfl)).trans ?_
  refine (shapeCast_apply _ h3 _ (ix4 t m (headOf e) (laneOf e)) (by
    rw [Shape.rowMajor_val_four, Shape.rowMajor_val_three]
    show ((t.val * 64 + m.val) * 16 + e.val / 32) * 32 + e.val % 32 = (t.val * 64 + m.val) * 512 + e.val
    omega)).trans ?_
  refine (transpose_apply _ _ h2 _ (ix4 t (headOf e) m (laneOf e)) (fun b => match b with
    | ⟨0, _⟩ => rfl | ⟨1, _⟩ => rfl | ⟨2, _⟩ => rfl | ⟨3, _⟩ => rfl)).trans ?_
  exact shapeCast_apply _ h1 _ (ix3 (bh t (headOf e)) m (laneOf e)) (by
    rw [Shape.rowMajor_val_three, Shape.rowMajor_val_four]
    show ((t.val * 16 + e.val / 32) * 64 + m.val) * 32 + e.val % 32
      = ((t.val * 16 + e.val / 32) * 64 + m.val) * 32 + e.val % 32
    rfl)

/-- A `[16, 64, 16, 32]` table (window, token, head, lane) laid per head as `[256, 64, 32]`: at
    (batch `16·t + h`, token `n`, lane `d`) it is the table at `(t, n, h, d)`. -/
theorem perHead_apply {α : Type} (Z : S16x64x16x32.Idx → α)
    (h1 : S16x64x16x32.Transposes [0, 2, 1, 3] S16x16x64x32) (h2 : S16x16x64x32.ShapeCasts S256x64x32)
    (t h : Fin 16) (n : Fin 64) (d : Fin 32) :
    shapeCast S256x64x32 (transpose S16x16x64x32 [0, 2, 1, 3] Z h1) h2 (ix3 (bh t h) n d)
      = Z (ix4 t n h d) := by
  refine (shapeCast_apply _ h2 _ (ix4 t h n d) (by
    rw [Shape.rowMajor_val_four, Shape.rowMajor_val_three]
    rfl)).trans ?_
  exact transpose_apply _ _ h1 _ (ix4 t n h d) (fun b => match b with
    | ⟨0, _⟩ => rfl | ⟨1, _⟩ => rfl | ⟨2, _⟩ => rfl | ⟨3, _⟩ => rfl)

/-- A `[16, 64, 512]` table read as heads: `[16, 64, 16, 32]` at `(t, n, h, d)` is the table at channel
    `32·h + d`. -/
theorem headBatch_apply {α : Type} (W : S16x64x512.Idx → α) (h1 : S16x64x512.ShapeCasts S16x64x16x32)
    (t h : Fin 16) (n : Fin 64) (d : Fin 32) :
    shapeCast S16x64x16x32 W h1 (ix4 t n h d) = W (ix3 t n (hd h d)) := by
  have hh := h.isLt; have hd' := d.isLt
  exact shapeCast_apply _ h1 _ (ix3 t n (hd h d)) (by
    rw [Shape.rowMajor_val_three, Shape.rowMajor_val_four]
    show (t.val * 64 + n.val) * 512 + (h.val * 32 + d.val) = ((t.val * 64 + n.val) * 16 + h.val) * 32 + d.val
    omega)

/-- The bias block `[16, 64, 64]` spread over the 16 windows as `[256, 64, 64]`: at batch `16·t + h` it is
    head `h`'s bias. -/
theorem bias_apply {α : Type} (B : S16x64x64.Idx → α)
    (h1 : S16x64x64.ShapeCasts S16x64x64) (h2 : S16x64x64.ShapeCasts S1x16x64x64)
    (h3 : S1x16x64x64.ShapeCasts S1x16x64x64) (h4 : S1x16x64x64.Broadcasts S16x16x64x64)
    (h5 : S16x16x64x64.ShapeCasts S256x64x64) (t h : Fin 16) (m n : Fin 64) :
    shapeCast S256x64x64 (broadcastTo S16x16x64x64 (shapeCast S1x16x64x64 (shapeCast S1x16x64x64
      (shapeCast S16x64x64 B h1) h2) h3) h4) h5 (ix3 (bh t h) m n) = B (ix3 h m n) := by
  refine (shapeCast_apply _ h5 _ (ix4 t h m n) (by
    rw [Shape.rowMajor_val_four, Shape.rowMajor_val_three]
    rfl)).trans ?_
  refine (broadcastTo_apply _ h4 _ (ix4 (0 : Fin 1) h m n) (fun a => match a with
    | ⟨0, _⟩ => by show (0 : Nat) = if (1 : Nat) = 1 then 0 else _; rw [if_pos rfl]
    | ⟨1, _⟩ => by show h.val = if (16 : Nat) = 1 then 0 else h.val; rw [if_neg (by decide)]
    | ⟨2, _⟩ => by show m.val = if (64 : Nat) = 1 then 0 else m.val; rw [if_neg (by decide)]
    | ⟨3, _⟩ => by show n.val = if (64 : Nat) = 1 then 0 else n.val; rw [if_neg (by decide)])).trans ?_
  refine (shapeCast_apply _ h3 _ (ix4 (0 : Fin 1) h m n) rfl).trans ?_
  refine (shapeCast_apply _ h2 _ (ix3 h m n) (by
    rw [Shape.rowMajor_val_three, Shape.rowMajor_val_four]
    show (h.val * 64 + m.val) * 64 + n.val = (((0 : Nat) * 16 + h.val) * 64 + m.val) * 64 + n.val
    omega)).trans ?_
  exact shapeCast_apply _ h1 _ (ix3 h m n) rfl

/-! ## The three products, each over arbitrary operands

For each product: which coordinate of the output index or of the contraction index each operand axis carries (one
lemma per axis), then the product into the zero accumulator at an index as a plain sum over the contracted extent. -/

theorem lhs_score_0 (i : S256x64x64.Idx) (q : dot_S256x64x32_S256x64x32_S256x64x64_2_2_1_1_0_0.contr.Idx) :
    (dot_S256x64x32_S256x64x32_S256x64x64_2_2_1_1_0_0.lhsIdx i q 0).val = (i 0).val := by
  unfold DotDims.lhsIdx
  rw [dif_pos (show (0 : Fin S256x64x32.rank) ∈ dot_S256x64x32_S256x64x32_S256x64x64_2_2_1_1_0_0.lhsBatch by decide)]
  rfl
theorem lhs_score_1 (i : S256x64x64.Idx) (q : dot_S256x64x32_S256x64x32_S256x64x64_2_2_1_1_0_0.contr.Idx) :
    (dot_S256x64x32_S256x64x32_S256x64x64_2_2_1_1_0_0.lhsIdx i q 1).val = (i 1).val := by
  unfold DotDims.lhsIdx
  rw [dif_neg (show ¬(1 : Fin S256x64x32.rank) ∈ dot_S256x64x32_S256x64x32_S256x64x64_2_2_1_1_0_0.lhsBatch by decide), dif_pos (show (1 : Fin S256x64x32.rank) ∈ dot_S256x64x32_S256x64x32_S256x64x64_2_2_1_1_0_0.lhsNonContracting by decide)]
  rfl
theorem lhs_score_2 (i : S256x64x64.Idx) (q : dot_S256x64x32_S256x64x32_S256x64x64_2_2_1_1_0_0.contr.Idx) :
    (dot_S256x64x32_S256x64x32_S256x64x64_2_2_1_1_0_0.lhsIdx i q 2).val = (q ⟨0, by decide⟩).val :=
  dot_S256x64x32_S256x64x32_S256x64x64_2_2_1_1_0_0.lhsIdx_val_of_single rfl i q
theorem rhs_score_0 (i : S256x64x64.Idx) (q : dot_S256x64x32_S256x64x32_S256x64x64_2_2_1_1_0_0.contr.Idx) :
    (dot_S256x64x32_S256x64x32_S256x64x64_2_2_1_1_0_0.rhsIdx i q 0).val = (i 0).val := by
  unfold DotDims.rhsIdx
  rw [dif_pos (show (0 : Fin S256x64x32.rank) ∈ dot_S256x64x32_S256x64x32_S256x64x64_2_2_1_1_0_0.rhsBatch by decide)]
  rfl
theorem rhs_score_1 (i : S256x64x64.Idx) (q : dot_S256x64x32_S256x64x32_S256x64x64_2_2_1_1_0_0.contr.Idx) :
    (dot_S256x64x32_S256x64x32_S256x64x64_2_2_1_1_0_0.rhsIdx i q 1).val = (i 2).val := by
  unfold DotDims.rhsIdx
  rw [dif_neg (show ¬(1 : Fin S256x64x32.rank) ∈ dot_S256x64x32_S256x64x32_S256x64x64_2_2_1_1_0_0.rhsBatch by decide), dif_pos (show (1 : Fin S256x64x32.rank) ∈ dot_S256x64x32_S256x64x32_S256x64x64_2_2_1_1_0_0.rhsNonContracting by decide)]
  rfl
theorem rhs_score_2 (i : S256x64x64.Idx) (q : dot_S256x64x32_S256x64x32_S256x64x64_2_2_1_1_0_0.contr.Idx) :
    (dot_S256x64x32_S256x64x32_S256x64x64_2_2_1_1_0_0.rhsIdx i q 2).val = (q ⟨0, by decide⟩).val :=
  dot_S256x64x32_S256x64x32_S256x64x64_2_2_1_1_0_0.rhsIdx_val_of_single rfl i q

/-- Scores: query token `m` against key token `n` in batch `b`, summed over the 32 lanes. -/
theorem scoreMm_apply (A B : FVec Ideal S256x64x32 .bf16) (b : Fin 256) (m n : Fin 64) :
    matmul dot_S256x64x32_S256x64x32_S256x64x64_2_2_1_1_0_0 none A B (constant (F := Ideal) S256x64x64 .f32 0x00000000#32) (ix3 b m n)
      = ∑ d : Fin 32, A (ix3 b m d) * B (ix3 b n d) := by
  simp only [matmul]
  rw [Ideal.matmul_constant_zero_apply, ← Equiv.sum_comp (contrEquiv1 dot_S256x64x32_S256x64x32_S256x64x64_2_2_1_1_0_0 32 rfl rfl).symm]
  refine Finset.sum_congr rfl fun k _ => ?_
  have hk := contrEquiv1_symm_val dot_S256x64x32_S256x64x32_S256x64x64_2_2_1_1_0_0 32 rfl rfl k
  have el : dot_S256x64x32_S256x64x32_S256x64x64_2_2_1_1_0_0.lhsIdx (ix3 b m n) ((contrEquiv1 dot_S256x64x32_S256x64x32_S256x64x64_2_2_1_1_0_0 32 rfl rfl).symm k) = ix3 b m k := funext fun a => Fin.ext (by
    match a with
    | ⟨0, _⟩ => exact lhs_score_0 _ _
    | ⟨1, _⟩ => exact lhs_score_1 _ _
    | ⟨2, _⟩ => exact (lhs_score_2 _ _).trans hk)
  have er : dot_S256x64x32_S256x64x32_S256x64x64_2_2_1_1_0_0.rhsIdx (ix3 b m n) ((contrEquiv1 dot_S256x64x32_S256x64x32_S256x64x64_2_2_1_1_0_0 32 rfl rfl).symm k) = ix3 b n k := funext fun a => Fin.ext (by
    match a with
    | ⟨0, _⟩ => exact rhs_score_0 _ _
    | ⟨1, _⟩ => exact rhs_score_1 _ _
    | ⟨2, _⟩ => exact (rhs_score_2 _ _).trans hk)
  rw [el, er]

theorem lhs_ctx_0 (i : S256x64x32.Idx) (q : dot_S256x64x64_S256x64x32_S256x64x32_2_1_1_2_0_0.contr.Idx) :
    (dot_S256x64x64_S256x64x32_S256x64x32_2_1_1_2_0_0.lhsIdx i q 0).val = (i 0).val := by
  unfold DotDims.lhsIdx
  rw [dif_pos (show (0 : Fin S256x64x64.rank) ∈ dot_S256x64x64_S256x64x32_S256x64x32_2_1_1_2_0_0.lhsBatch by decide)]
  rfl
theorem lhs_ctx_1 (i : S256x64x32.Idx) (q : dot_S256x64x64_S256x64x32_S256x64x32_2_1_1_2_0_0.contr.Idx) :
    (dot_S256x64x64_S256x64x32_S256x64x32_2_1_1_2_0_0.lhsIdx i q 1).val = (i 1).val := by
  unfold DotDims.lhsIdx
  rw [dif_neg (show ¬(1 : Fin S256x64x64.rank) ∈ dot_S256x64x64_S256x64x32_S256x64x32_2_1_1_2_0_0.lhsBatch by decide), dif_pos (show (1 : Fin S256x64x64.rank) ∈ dot_S256x64x64_S256x64x32_S256x64x32_2_1_1_2_0_0.lhsNonContracting by decide)]
  rfl
theorem lhs_ctx_2 (i : S256x64x32.Idx) (q : dot_S256x64x64_S256x64x32_S256x64x32_2_1_1_2_0_0.contr.Idx) :
    (dot_S256x64x64_S256x64x32_S256x64x32_2_1_1_2_0_0.lhsIdx i q 2).val = (q ⟨0, by decide⟩).val :=
  dot_S256x64x64_S256x64x32_S256x64x32_2_1_1_2_0_0.lhsIdx_val_of_single rfl i q
theorem rhs_ctx_0 (i : S256x64x32.Idx) (q : dot_S256x64x64_S256x64x32_S256x64x32_2_1_1_2_0_0.contr.Idx) :
    (dot_S256x64x64_S256x64x32_S256x64x32_2_1_1_2_0_0.rhsIdx i q 0).val = (i 0).val := by
  unfold DotDims.rhsIdx
  rw [dif_pos (show (0 : Fin S256x64x32.rank) ∈ dot_S256x64x64_S256x64x32_S256x64x32_2_1_1_2_0_0.rhsBatch by decide)]
  rfl
theorem rhs_ctx_1 (i : S256x64x32.Idx) (q : dot_S256x64x64_S256x64x32_S256x64x32_2_1_1_2_0_0.contr.Idx) :
    (dot_S256x64x64_S256x64x32_S256x64x32_2_1_1_2_0_0.rhsIdx i q 1).val = (q ⟨0, by decide⟩).val :=
  dot_S256x64x64_S256x64x32_S256x64x32_2_1_1_2_0_0.rhsIdx_val_of_single rfl i q
theorem rhs_ctx_2 (i : S256x64x32.Idx) (q : dot_S256x64x64_S256x64x32_S256x64x32_2_1_1_2_0_0.contr.Idx) :
    (dot_S256x64x64_S256x64x32_S256x64x32_2_1_1_2_0_0.rhsIdx i q 2).val = (i 2).val := by
  unfold DotDims.rhsIdx
  rw [dif_neg (show ¬(2 : Fin S256x64x32.rank) ∈ dot_S256x64x64_S256x64x32_S256x64x32_2_1_1_2_0_0.rhsBatch by decide), dif_pos (show (2 : Fin S256x64x32.rank) ∈ dot_S256x64x64_S256x64x32_S256x64x32_2_1_1_2_0_0.rhsNonContracting by decide)]
  rfl

/-- Weighted values: the weights of query token `m` against the values' lane `d` in batch `b`, summed over the 64
    key tokens. -/
theorem ctxMm_apply (A : FVec Ideal S256x64x64 .bf16) (B : FVec Ideal S256x64x32 .bf16) (b : Fin 256) (m : Fin 64) (d : Fin 32) :
    matmul dot_S256x64x64_S256x64x32_S256x64x32_2_1_1_2_0_0 none A B (constant (F := Ideal) S256x64x32 .f32 0x00000000#32) (ix3 b m d)
      = ∑ n : Fin 64, A (ix3 b m n) * B (ix3 b n d) := by
  simp only [matmul]
  rw [Ideal.matmul_constant_zero_apply, ← Equiv.sum_comp (contrEquiv1 dot_S256x64x64_S256x64x32_S256x64x32_2_1_1_2_0_0 64 rfl rfl).symm]
  refine Finset.sum_congr rfl fun k _ => ?_
  have hk := contrEquiv1_symm_val dot_S256x64x64_S256x64x32_S256x64x32_2_1_1_2_0_0 64 rfl rfl k
  have el : dot_S256x64x64_S256x64x32_S256x64x32_2_1_1_2_0_0.lhsIdx (ix3 b m d) ((contrEquiv1 dot_S256x64x64_S256x64x32_S256x64x32_2_1_1_2_0_0 64 rfl rfl).symm k) = ix3 b m k := funext fun a => Fin.ext (by
    match a with
    | ⟨0, _⟩ => exact lhs_ctx_0 _ _
    | ⟨1, _⟩ => exact lhs_ctx_1 _ _
    | ⟨2, _⟩ => exact (lhs_ctx_2 _ _).trans hk)
  have er : dot_S256x64x64_S256x64x32_S256x64x32_2_1_1_2_0_0.rhsIdx (ix3 b m d) ((contrEquiv1 dot_S256x64x64_S256x64x32_S256x64x32_2_1_1_2_0_0 64 rfl rfl).symm k) = ix3 b k d := funext fun a => Fin.ext (by
    match a with
    | ⟨0, _⟩ => exact rhs_ctx_0 _ _
    | ⟨1, _⟩ => exact (rhs_ctx_1 _ _).trans hk
    | ⟨2, _⟩ => exact rhs_ctx_2 _ _)
  rw [el, er]

theorem lhs_proj_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_proj_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs_proj_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_proj_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- Output projection: row `r` of the merged heads against column `c` of the weight block, summed over the 512
    channels. -/
theorem projMm_apply (A : FVec Ideal S1024x512 .bf16) (B : FVec Ideal S512x512 .bf16) (r : Fin 1024) (c : Fin 512) :
    matmul dot_S1024x512_S512x512_S1024x512_1_0_0_1_n_n none A B (constant (F := Ideal) S1024x512 .f32 0x00000000#32) (ix2 r c)
      = ∑ e : Fin 512, A (ix2 r e) * B (ix2 e c) := by
  simp only [matmul]
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 r c) ((contrEquiv1 dot_S1024x512_S512x512_S1024x512_1_0_0_1_n_n 512 rfl rfl).symm k) = ix2 r k := funext fun a => Fin.ext (by
    match a with
    | ⟨0, _⟩ => exact lhs_proj_0 _ _
    | ⟨1, _⟩ => exact (lhs_proj_1 _ _).trans hk)
  have er : dot_S1024x512_S512x512_S1024x512_1_0_0_1_n_n.rhsIdx (ix2 r c) ((contrEquiv1 dot_S1024x512_S512x512_S1024x512_1_0_0_1_n_n 512 rfl rfl).symm k) = ix2 k c := funext fun a => Fin.ext (by
    match a with
    | ⟨0, _⟩ => exact (rhs_proj_0 _ _).trans hk
    | ⟨1, _⟩ => exact rhs_proj_1 _ _)
  rw [el, er]

/-! ## The softmax pieces, each over an arbitrary score table -/

/-- A per-row quantity `[256, 64]` spread along the key tokens (`[256, 64]` to `[256, 64, 1]` to `[256, 64, 64]`): at
    `(b, m, n)` it is the quantity of row `(b, m)`. -/
theorem column_apply {α : Type} (R : S256x64.Idx → α) (h1 : S256x64.ShapeCasts S256x64x1)
    (h2 : S256x64x1.Broadcasts S256x64x64) (b : Fin 256) (m n : Fin 64) :
    broadcastTo S256x64x64 (shapeCast S256x64x1 R h1) h2 (ix3 b m n) = R (ix2 b m) := by
  refine (broadcastTo_apply _ h2 _ (ix3 b m (0 : Fin 1)) (fun a => match a with
    | ⟨0, _⟩ => by show b.val = if (256 : Nat) = 1 then 0 else b.val; rw [if_neg (by decide)]
    | ⟨1, _⟩ => by show m.val = if (64 : Nat) = 1 then 0 else m.val; rw [if_neg (by decide)]
    | ⟨2, _⟩ => by show (0 : Nat) = if (1 : Nat) = 1 then 0 else n.val; rw [if_pos rfl])).trans ?_
  exact shapeCast_apply _ h1 _ (ix2 b m) (by
    rw [Shape.rowMajor_val_two, Shape.rowMajor_val_three]
    show b.val * 64 + m.val = (b.val * 64 + m.val) * 1 + 0
    omega)

/-- The row maximum: the fold of `max` over the 64 key tokens, started from the accumulator's word. -/
theorem rowMaxRed_apply (S : FVec Ideal S256x64x64 .f32) (h : S256x64x64.Reduces [2] S256x64) (hφ : FKind.Formats .f32)
    (hacc : (0xFF800000#32 : BitVec (FTy.bits .f32)) = FKind.maximumf.neutral .f32 hφ) (b : Fin 256) (m : Fin 64) :
    multiReduction (F := Ideal) .maximumf [2] S256x64 S 0xFF800000#32 h hφ hacc (ix2 b m)
      = (Finset.univ : Finset (Fin 64)).fold max (Ideal.ofBits .f32 0xFF800000#32) (fun n => S (ix3 b m n)) := by
  refine (Ideal.multiReduction_maximumf_single S 0xFF800000#32 h hφ hacc (ix2 b m)).trans ?_
  have e : (S ∘ h.lift (ix2 b m)) = fun n : Fin 64 => S (ix3 b m n) :=
    funext fun n => congrArg S (funext fun a => Fin.ext (by
      match a with
      | ⟨0, _⟩ => rfl
      | ⟨1, _⟩ => rfl
      | ⟨2, _⟩ => rfl))
  rw [e]
  rfl

/-- The row sum over the 64 key tokens. -/
theorem rowSumRed_apply (E : FVec Ideal S256x64x64 .f32) (h : S256x64x64.Reduces [2] S256x64) (hφ : FKind.Formats .f32)
    (hacc : (0x00000000#32 : BitVec (FTy.bits .f32)) = FKind.add.neutral .f32 hφ) (b : Fin 256) (m : Fin 64) :
    multiReduction (F := Ideal) .add [2] S256x64 E 0x00000000#32 h hφ hacc (ix2 b m)
      = ∑ n : Fin 64, E (ix3 b m n) := by
  refine (Ideal.multiReduction_add_single E 0x00000000#32 h hφ hacc (ix2 b m)).trans ?_
  refine Finset.sum_congr rfl fun n _ => congrArg E (funext fun a => Fin.ext (by
    match a with
    | ⟨0, _⟩ => rfl
    | ⟨1, _⟩ => rfl
    | ⟨2, _⟩ => rfl))

/-- The exponential of a score less its row's maximum. -/
theorem expRow_apply (S : FVec Ideal S256x64x64 .f32) (hr : S256x64x64.Reduces [2] S256x64) (hφ : FKind.Formats .f32)
    (hacc : (0xFF800000#32 : BitVec (FTy.bits .f32)) = FKind.maximumf.neutral .f32 hφ)
    (hc : S256x64.ShapeCasts S256x64x1) (hb : S256x64x1.Broadcasts S256x64x64) (b : Fin 256) (m n : Fin 64) :
    exp (subf S (broadcastTo S256x64x64 (shapeCast S256x64x1
        (multiReduction (F := Ideal) .maximumf [2] S256x64 S 0xFF800000#32 hr hφ hacc) hc) hb)) (ix3 b m n)
      = Ideal.exp (S (ix3 b m n)
          - (Finset.univ : Finset (Fin 64)).fold max (Ideal.ofBits .f32 0xFF800000#32) (fun n' => S (ix3 b m n'))) :=
  congrArg (fun z => Ideal.exp (S (ix3 b m n) - z))
    ((column_apply _ hc hb b m n).trans (rowMaxRed_apply S hr hφ hacc b m))

/-- The softmax weights of a score table whose row `(16·t + h, m)` is the specification's score row: the
    specification's weights. -/
theorem softmax_apply (S : FVec Ideal S256x64x64 .f32) (hr : S256x64x64.Reduces [2] S256x64) (hφ : FKind.Formats .f32)
    (hacc : (0xFF800000#32 : BitVec (FTy.bits .f32)) = FKind.maximumf.neutral .f32 hφ)
    (hφ' : FKind.Formats .f32) (hacc' : (0x00000000#32 : BitVec (FTy.bits .f32)) = FKind.add.neutral .f32 hφ')
    (hc : S256x64.ShapeCasts S256x64x1) (hb : S256x64x1.Broadcasts S256x64x64) (hlt : FTy.bits .bf16 < FTy.bits .f32)
    (Q K : Fin 16 → Fin 64 → Fin 32 → EReal) (bias : Fin 16 → Fin 64 → Fin 64 → EReal)
    (t h : Fin 16) (m : Fin 64) (hS : ∀ n, S (ix3 (bh t h) m n) = score Q K bias h m n) (n : Fin 64) :
    truncf .bf16 (divf
        (exp (subf S (broadcastTo S256x64x64 (shapeCast S256x64x1
          (multiReduction (F := Ideal) .maximumf [2] S256x64 S 0xFF800000#32 hr hφ hacc) hc) hb)))
        (broadcastTo S256x64x64 (shapeCast S256x64x1
          (multiReduction (F := Ideal) .add [2] S256x64
            (exp (subf S (broadcastTo S256x64x64 (shapeCast S256x64x1
              (multiReduction (F := Ideal) .maximumf [2] S256x64 S 0xFF800000#32 hr hφ hacc) hc) hb)))
            0x00000000#32 hr hφ' hacc') hc) hb)) hlt (ix3 (bh t h) m n)
      = wgt (Ideal.ofBits .f32 0xFF800000#32) Q K bias h m n := by
  have hrow : (fun n' => S (ix3 (bh t h) m n')) = fun n' => score Q K bias h m n' := funext hS
  have hex : ∀ n', exp (subf S (broadcastTo S256x64x64 (shapeCast S256x64x1
        (multiReduction (F := Ideal) .maximumf [2] S256x64 S 0xFF800000#32 hr hφ hacc) hc) hb)) (ix3 (bh t h) m n')
      = ex (Ideal.ofBits .f32 0xFF800000#32) Q K bias h m n' := fun n' => by
    refine (expRow_apply S hr hφ hacc hc hb (bh t h) m n').trans ?_
    rw [hrow, hS n']
    rfl
  -- the quotient: numerator the exponential, denominator the row's sum of exponentials
  refine (congrArg₂ Ideal.div (hex n) ?_ : _ = Ideal.div _ _)
  refine (column_apply _ hc hb (bh t h) m n).trans ?_
  refine (rowSumRed_apply _ hr hφ' hacc' (bh t h) m).trans ?_
  exact Finset.sum_congr rfl fun n' _ => hex n'

/-- The score table `[256, 64, 64]` at batch `16·t + h`: the specification's score over window `t`'s queries and
    keys and head `h`'s bias. -/
theorem scores_apply (v39 : FVec Ideal S256x64x32 .bf16) (v40 : FVec Ideal S16x64x16x32 .bf16) (v47 : Vec Ideal S16x64x64 .f32)
    (g1 : S16x64x16x32.Transposes [0, 2, 1, 3] S16x16x64x32) (g2 : S16x16x64x32.ShapeCasts S256x64x32)
    (h1 : S16x64x64.ShapeCasts S16x64x64) (h2 : S16x64x64.ShapeCasts S1x16x64x64)
    (h3 : S1x16x64x64.ShapeCasts S1x16x64x64) (h4 : S1x16x64x64.Broadcasts S16x16x64x64)
    (h5 : S16x16x64x64.ShapeCasts S256x64x64) (t h : Fin 16) (m n : Fin 64) :
    addf (matmul dot_S256x64x32_S256x64x32_S256x64x64_2_2_1_1_0_0 none v39
          (shapeCast S256x64x32 (transpose S16x16x64x32 [0, 2, 1, 3] v40 g1) g2)
          (constant (F := Ideal) S256x64x64 .f32 0x00000000#32))
        (shapeCast S256x64x64 (broadcastTo S16x16x64x64 (shapeCast S1x16x64x64 (shapeCast S1x16x64x64
          (shapeCast S16x64x64 v47 h1) h2) h3) h4) h5) (ix3 (bh t h) m n)
      = score (fun h m d => v39 (ix3 (bh t h) m d)) (fun h n d => v40 (ix4 t n h d))
          (fun h m n => v47 (ix3 h m n)) h m n := by
  refine (addf_apply _ _ _).trans ?_
  refine congrArg₂ (· + ·) ?_ (bias_apply v47 h1 h2 h3 h4 h5 t h m n)
  refine (scoreMm_apply _ _ _ _ _).trans ?_
  exact Finset.sum_congr rfl fun d _ => congrArg (v39 (ix3 (bh t h) m d) * ·) (perHead_apply v40 g1 g2 t h n d)

/-- The bias row `[512]` spread over the 1024 rows (`[512]` to `[1, 512]` to `[1024, 512]`): at `(r, c)` it is the bias
    at `c`. -/
theorem biasRow_apply {α : Type} (b : S512.Idx → α) (h1 : S512.ShapeCasts S1x512) (h2 : S1x512.Broadcasts S1024x512)
    (r : Fin 1024) (c : Fin 512) :
    broadcastTo S1024x512 (shapeCast S1x512 b h1) h2 (ix2 r c) = b (ix1 c) := by
  refine (broadcastTo_apply _ h2 _ (ix2 (0 : Fin 1) c) (fun a => match a with
    | ⟨0, _⟩ => by show (0 : Nat) = if (1 : Nat) = 1 then 0 else r.val; rw [if_pos rfl]
    | ⟨1, _⟩ => by show c.val = if (512 : Nat) = 1 then 0 else c.val; rw [if_neg (by decide)])).trans ?_
  exact shapeCast_apply _ h1 _ (ix1 c) (by
    rw [Shape.rowMajor_val_one, Shape.rowMajor_val_two]
    show c.val = 0 * 512 + c.val
    omega)

end Core

/-! ## The payload at an index -/

theorem pay5_apply (v36 : FVec Ideal S16x64x512 .bf16) (v39 : FVec Ideal S256x64x32 .bf16) (v40 : FVec Ideal S16x64x16x32 .bf16)
    (v47 : Vec Ideal S16x64x64 .f32) (v70 : Vec Ideal S512x512 .bf16) (v73 : Vec Ideal S512 .f32)
    (c : Fin 512) (i : Fin 8) (wc : Fin 128) :
    k0_pay5 (F := Ideal) v36 v39 v40 v47 v70 v73 (ix4 (0 : Fin 1) c i wc)
      = attn (Ideal.ofBits .f32 0xFF800000#32)
          (fun h m d => v39 (ix3 (bh (winOf wc) h) m d))
          (fun h n d => v40 (ix4 (winOf wc) n h d))
          (fun h n d => v36 (ix3 (winOf wc) n (hd h d)))
          (fun h m n => v47 (ix3 h m n)) (fun c e => v70 (ix2 e c)) (fun c => v73 (ix1 c))
          (tokOf i (offOf wc)) c := by
  unfold k0_pay5
  -- the stored entry is the projection's entry at the token's row, column `c`
  refine (Core.store_apply _ _ _ _ _ _ c i wc).trans ?_
  -- which is the product's entry plus the bias
  refine (addf_apply _ _ _).trans ?_
  unfold attn
  refine congrArg₂ (· + ·) ?_ (Core.biasRow_apply v73 _ _ _ c)
  refine (Core.projMm_apply _ _ _ _).trans ?_
  refine Finset.sum_congr rfl fun e _ => congrArg₂ (· * ·) ?_ (congrFun (shapeCast_self v70 _) (ix2 e c))
  -- the merged heads at channel `e`: head `e / 32`'s context at lane `e % 32`
  refine (Core.merge_apply _ _ _ _ _ (winOf wc) (tokOf i (offOf wc)) e).trans ?_
  refine (truncf_apply (φ := .f32) (ψ := .bf16) _ _ _).trans ?_
  refine (Core.ctxMm_apply _ _ _ _ _).trans ?_
  unfold ctx
  refine Finset.sum_congr rfl fun n _ => congrArg₂ (· * ·) ?_ ?_
  · -- the weights: the softmax of the score row
    exact Core.softmax_apply _ _ _ _ _ _ _ _ _ _ _ _ (winOf wc) (headOf e) (tokOf i (offOf wc))
      (fun n' => Core.scores_apply v39 v40 v47 _ _ _ _ _ _ _ (winOf wc) (headOf e) (tokOf i (offOf wc)) n') n
  · -- the values, per head
    exact (Core.perHead_apply _ _ _ (winOf wc) (headOf e) n (laneOf e)).trans
      (Core.headBatch_apply v36 _ (winOf wc) (headOf e) n (laneOf e))

end Cert.KernelIdeal.Pay

end
-- ==== Proof.KBlocks.lean ====
/-
  From the body's block to the whole array.

  Grid point t = (b, r1) stages rows 8·r1 … 8·r1 + 7 of image b of both inputs (all channels and columns) and the
  weights, biases and the position-bias block whole; it writes back the same rows of the result. So what it
  writes at (0, c, i, wc) is the result pixel (b, c, 8·r1 + i, wc), and the 128 points' blocks tile the result.
-/
import proofs.«425595_j7851200217267_3_alg».proof.Proof.Gen.KernelIdeal.Value
import proofs.«425595_j7851200217267_3_alg».proof.Proof.KProj
import proofs.«425595_j7851200217267_3_alg».proof.Proof.KCore
import proofs.«425595_j7851200217267_3_alg».proof.Proof.Spec
import Idealize.ShloMosaic.Lib.ValueIdx
import Idealize.ShloMosaic.Lib.Pipeline.Value
import Idealize.ShloMosaic.Lib.StableHlo.Run

noncomputable section

namespace Cert.KernelIdeal.Blocks

open Cert.KernelIdeal Cert.KernelIdeal.Gen Cert.KernelIdeal.Pay Idealize.ShloMosaic Idealize.ShloMosaic.TcCoe Idealize.SL.Sem
open Idealize.ShloMosaic.ValueIdx Cert.WinAttn
open Idealize.ShloMosaic.Pipeline (Dat)

variable (m : (ℓ : Loc nD τ sig) → Buf (Elt Ideal) ℓ) (ρ : Dev nD → PrngReg)

/-! ## The arrays the host wrote before the region -/

/-- The query weight as the region finds it: transposed (the change of format is the identity). -/
theorem V_wq (c : Dev nD) : (V m c main_v1 : S512x512.Idx → EReal)
    = truncf (F := Ideal) .bf16 (transpose S512x512 [1, 0] (m ((c : Thread nD τ).loc main_arg2)) transposes_S512x512_S512x512_1_0) bitsLt_bf16_f32 := by
  dsimp only [Gen.V, Gen.hostOps0]; after_results

/-- The key/value weight as the region finds it: transposed. -/
theorem V_wkv (c : Dev nD) : (V m c main_v3 : S512x1024.Idx → EReal)
    = truncf (F := Ideal) .bf16 (transpose S512x1024 [1, 0] (m ((c : Thread nD τ).loc main_arg4)) transposes_S1024x512_S512x1024_1_0) bitsLt_bf16_f32 := by
  dsimp only [Gen.V, Gen.hostOps0]; after_results

/-- The output weight as the region finds it: transposed. -/
theorem V_wo (c : Dev nD) : (V m c main_v5 : S512x512.Idx → EReal)
    = truncf (F := Ideal) .bf16 (transpose S512x512 [1, 0] (m ((c : Thread nD τ).loc main_arg6)) transposes_S512x512_S512x512_1_0) bitsLt_bf16_f32 := by
  dsimp only [Gen.V, Gen.hostOps0]; after_results

/-- Entry (c, o) of a transposed square weight is entry (o, c) of the weight. -/
theorem transpose_sq_apply (W : FVec Ideal S512x512 .f32) (c o : Fin 512) :
    transpose S512x512 [1, 0] W transposes_S512x512_S512x512_1_0 (ix2 c o) = W (ix2 o c) :=
  transpose_apply [1, 0] W transposes_S512x512_S512x512_1_0 (ix2 c o) (ix2 o c) (fun b => match b with
    | ⟨0, _⟩ => rfl
    | ⟨1, _⟩ => rfl)

/-- Entry (c, o) of the transposed key/value weight is entry (o, c) of the weight. -/
theorem transpose_kv_apply (W : FVec Ideal S1024x512 .f32) (c : Fin 512) (o : Fin 1024) :
    transpose S512x1024 [1, 0] W transposes_S1024x512_S512x1024_1_0 (ix2 c o) = W (ix2 o c) :=
  transpose_apply [1, 0] W transposes_S1024x512_S512x1024_1_0 (ix2 c o) (ix2 o c) (fun b => match b with
    | ⟨0, _⟩ => rfl
    | ⟨1, _⟩ => rfl)

/-! ## One point's stored block, entry by entry -/

/-- Row `8·r1 + i` lies in window-row `r1` at offset `i`. -/
theorem winOf_row (r1 : Fin 16) (i : Fin 8) (h : r1.val * 8 + i.val < 128) : winOf ⟨r1.val * 8 + i.val, h⟩ = r1 :=
  Fin.ext (by show (r1.val * 8 + i.val) / 8 = r1.val; have := i.isLt; omega)
theorem offOf_row (r1 : Fin 16) (i : Fin 8) (h : r1.val * 8 + i.val < 128) : offOf ⟨r1.val * 8 + i.val, h⟩ = i :=
  Fin.ext (by show (r1.val * 8 + i.val) % 8 = i.val; have := i.isLt; omega)

/-- What the body stores at (0, c, i, wc), when its staged blocks are rows 8·r1 … 8·r1+7 of image b of the two
    inputs and its weight blocks are the transposed weights: the result pixel (b, c, 8·r1 + i, wc). -/
theorem body_block (x0 x1 : Vec Ideal S1x512x8x128 .f32) (w2 : Vec Ideal S512x512 .bf16) (b3 : Vec Ideal S512 .f32)
    (w4 : Vec Ideal S512x1024 .bf16) (b5 : Vec Ideal S1024 .f32) (w6 : Vec Ideal S512x512 .bf16) (b7 : Vec Ideal S512 .f32)
    (x8 : Vec Ideal S16x64x64 .f32)
    (A0 A1 : Img) (Wq : FVec Ideal S512x512 .f32) (bq : FVec Ideal S512 .f32) (Wkv : FVec Ideal S1024x512 .f32) (bkv : FVec Ideal S1024 .f32)
    (Wo : FVec Ideal S512x512 .f32) (bo : FVec Ideal S512 .f32) (B : FVec Ideal S16x64x64 .f32)
    (b : Fin 8) (r1 : Fin 16)
    (h0 : ∀ (cc : Fin 512) (i : Fin 8) (w : Fin 128), x0 (ix4 (0 : Fin 1) cc i w) = A0 (ix4 b cc ⟨r1.val * 8 + i.val, by have := r1.isLt; have := i.isLt; omega⟩ w))
    (h1 : ∀ (cc : Fin 512) (i : Fin 8) (w : Fin 128), x1 (ix4 (0 : Fin 1) cc i w) = A1 (ix4 b cc ⟨r1.val * 8 + i.val, by have := r1.isLt; have := i.isLt; omega⟩ w))
    (h2 : ∀ (cc o : Fin 512), w2 (ix2 cc o) = Wq (ix2 o cc)) (h3 : ∀ o : Fin 512, b3 (ix1 o) = bq (ix1 o))
    (h4 : ∀ (cc : Fin 512) (o : Fin 1024), w4 (ix2 cc o) = Wkv (ix2 o cc)) (h5 : ∀ o : Fin 1024, b5 (ix1 o) = bkv (ix1 o))
    (h6 : ∀ (e cc : Fin 512), w6 (ix2 e cc) = Wo (ix2 cc e)) (h7 : ∀ o : Fin 512, b7 (ix1 o) = bo (ix1 o))
    (h8 : ∀ (h : Fin 16) (mm n : Fin 64), x8 (ix3 h mm n) = B (ix3 h mm n))
    (cc : Fin 512) (i : Fin 8) (wc : Fin 128) :
    k0_pay5 (F := Ideal) (k0_pay2 x1 w4 b5) (k0_pay3 x0 w2 b3) (k0_pay4 x1 w4 b5) x8 w6 b7 (ix4 (0 : Fin 1) cc i wc)
      = pix (params Wq bq Wkv bkv Wo bo B) A0 A1 b cc ⟨r1.val * 8 + i.val, by have := r1.isLt; have := i.isLt; omega⟩ wc := by
  rw [pay5_apply]
  simp only [pay3_apply, pay4_apply, pay2_apply]
  unfold pix out params
  dsimp only
  rw [winOf_row, offOf_row]
  have e0 : blkTok x0 (winOf wc) = imgTok A0 b r1 (winOf wc) := by
    funext mm c'; exact h0 c' (rowIn mm) (tokCol (winOf wc) mm)
  have e1 : blkTok x1 (winOf wc) = imgTok A1 b r1 (winOf wc) := by
    funext mm c'; exact h1 c' (rowIn mm) (tokCol (winOf wc) mm)
  have e2 : (fun o c => w2 (ix2 c o)) = (fun o c => Wq (ix2 o c)) := by funext o c; exact h2 c o
  have e3 : (fun o => b3 (ix1 o)) = (fun o => bq (ix1 o)) := by funext o; exact h3 o
  have e4 : (fun o c => w4 (ix2 c o)) = (fun o c => Wkv (ix2 o c)) := by funext o c; exact h4 c o
  have e5 : (fun o => b5 (ix1 o)) = (fun o => bkv (ix1 o)) := by funext o; exact h5 o
  have e6 : (fun c e => w6 (ix2 e c)) = (fun c e => Wo (ix2 c e)) := by funext c e; exact h6 e c
  have e7 : (fun c => b7 (ix1 c)) = (fun c => bo (ix1 c)) := by funext o; exact h7 o
  have e8 : (fun h mm n => x8 (ix3 h mm n)) = (fun h mm n => B (ix3 h mm n)) := by funext h mm n; exact h8 h mm n
  rw [e0, e1, e2, e3, e4, e5, e6, e7, e8]

/-- The same at any index `y` of the stored block, against the result at the array index `j` under it. -/
theorem body_at (x0 x1 : Vec Ideal S1x512x8x128 .f32) (w2 : Vec Ideal S512x512 .bf16) (b3 : Vec Ideal S512 .f32)
    (w4 : Vec Ideal S512x1024 .bf16) (b5 : Vec Ideal S1024 .f32) (w6 : Vec Ideal S512x512 .bf16) (b7 : Vec Ideal S512 .f32)
    (x8 : Vec Ideal S16x64x64 .f32)
    (A0 A1 : Img) (Wq : FVec Ideal S512x512 .f32) (bq : FVec Ideal S512 .f32) (Wkv : FVec Ideal S1024x512 .f32) (bkv : FVec Ideal S1024 .f32)
    (Wo : FVec Ideal S512x512 .f32) (bo : FVec Ideal S512 .f32) (B : FVec Ideal S16x64x64 .f32)
    (b : Fin 8) (r1 : Fin 16)
    (h0 : ∀ (cc : Fin 512) (i : Fin 8) (w : Fin 128), x0 (ix4 (0 : Fin 1) cc i w) = A0 (ix4 b cc ⟨r1.val * 8 + i.val, by have := r1.isLt; have := i.isLt; omega⟩ w))
    (h1 : ∀ (cc : Fin 512) (i : Fin 8) (w : Fin 128), x1 (ix4 (0 : Fin 1) cc i w) = A1 (ix4 b cc ⟨r1.val * 8 + i.val, by have := r1.isLt; have := i.isLt; omega⟩ w))
    (h2 : ∀ (cc o : Fin 512), w2 (ix2 cc o) = Wq (ix2 o cc)) (h3 : ∀ o : Fin 512, b3 (ix1 o) = bq (ix1 o))
    (h4 : ∀ (cc : Fin 512) (o : Fin 1024), w4 (ix2 cc o) = Wkv (ix2 o cc)) (h5 : ∀ o : Fin 1024, b5 (ix1 o) = bkv (ix1 o))
    (h6 : ∀ (e cc : Fin 512), w6 (ix2 e cc) = Wo (ix2 cc e)) (h7 : ∀ o : Fin 512, b7 (ix1 o) = bo (ix1 o))
    (h8 : ∀ (h : Fin 16) (mm n : Fin 64), x8 (ix3 h mm n) = B (ix3 h mm n))
    (y : S1x512x8x128.Idx) (j : S8x512x128x128.Idx)
    (hj0 : (j 0).val = b.val) (hj1 : (j 1).val = (y 1).val) (hj2 : (j 2).val = r1.val * 8 + (y 2).val) (hj3 : (j 3).val = (y 3).val) :
    k0_pay5 (F := Ideal) (k0_pay2 x1 w4 b5) (k0_pay3 x0 w2 b3) (k0_pay4 x1 w4 b5) x8 w6 b7 y
      = G (params Wq bq Wkv bkv Wo bo B) A0 A1 j := by
  obtain ⟨y0, cc, i, wc, rfl⟩ : ∃ (y0 : Fin 1) (cc : Fin 512) (i : Fin 8) (wc : Fin 128), y = ix4 y0 cc i wc :=
    ⟨y 0, y 1, y 2, y 3, eq_ix4 y⟩
  have hy0 : y0 = 0 := Subsingleton.elim _ _
  subst hy0
  rw [body_block x0 x1 w2 b3 w4 b5 w6 b7 x8 A0 A1 Wq bq Wkv bkv Wo bo B b r1 h0 h1 h2 h3 h4 h5 h6 h7 h8]
  show _ = pix _ A0 A1 ⟨(j 0).val, (j 0).isLt⟩ ⟨(j 1).val, (j 1).isLt⟩ ⟨(j 2).val, (j 2).isLt⟩ ⟨(j 3).val, (j 3).isLt⟩
  have e0 : (⟨(j 0).val, (j 0).isLt⟩ : Fin 8) = b := Fin.ext hj0
  have e1 : (⟨(j 1).val, (j 1).isLt⟩ : Fin 512) = cc := Fin.ext hj1
  have e2 : (⟨(j 2).val, (j 2).isLt⟩ : Fin 128) = ⟨r1.val * 8 + i.val, by have := r1.isLt; have := i.isLt; omega⟩ := Fin.ext hj2
  have e3 : (⟨(j 3).val, (j 3).isLt⟩ : Fin 128) = wc := Fin.ext hj3
  rw [e0, e1, e2, e3]

/-! ## The index maps, decided once over the 128 grid points -/

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- Both image windows move with the output window: block (b, 0, r1, 0) at the point (b, r1). -/
theorem idx_facts : ∀ t : Fin cfg0.N,
    win0_0.index t (0 : Fin 4) = win0_9.index t (0 : Fin 4) ∧ win0_0.index t (1 : Fin 4) = 0
    ∧ win0_0.index t (2 : Fin 4) = win0_9.index t (2 : Fin 4) ∧ win0_0.index t (3 : Fin 4) = 0
    ∧ win0_1.index t (0 : Fin 4) = win0_9.index t (0 : Fin 4) ∧ win0_1.index t (1 : Fin 4) = 0
    ∧ win0_1.index t (2 : Fin 4) = win0_9.index t (2 : Fin 4) ∧ win0_1.index t (3 : Fin 4) = 0
    ∧ win0_9.index t (0 : Fin 4) < 8 ∧ win0_9.index t (1 : Fin 4) = 0
    ∧ win0_9.index t (2 : Fin 4) < 16 ∧ win0_9.index t (3 : Fin 4) = 0 :=
  (by decide +kernel : ∀ t : Fin grid0.N, _)

/-- The weight, bias and position-bias windows stay at block 0. -/
theorem idx_const : ∀ t : Fin cfg0.N,
    win0_2.index t (0 : Fin 2) = 0 ∧ win0_2.index t (1 : Fin 2) = 0 ∧ win0_3.index t (0 : Fin 1) = 0
    ∧ win0_4.index t (0 : Fin 2) = 0 ∧ win0_4.index t (1 : Fin 2) = 0 ∧ win0_5.index t (0 : Fin 1) = 0
    ∧ win0_6.index t (0 : Fin 2) = 0 ∧ win0_6.index t (1 : Fin 2) = 0 ∧ win0_7.index t (0 : Fin 1) = 0
    ∧ win0_8.index t (0 : Fin 3) = 0 ∧ win0_8.index t (1 : Fin 3) = 0 ∧ win0_8.index t (2 : Fin 3) = 0 :=
  (by decide +kernel : ∀ t : Fin grid0.N, _)

/-- Every (image, window-row) pair is some point's block. -/
theorem idx_onto : ∀ (q0 : Fin 8) (q2 : Fin 16), ∃ t : Fin cfg0.N, win0_9.index t = ![q0.val, 0, q2.val, 0] :=
  (by decide +kernel : ∀ (q0 : Fin 8) (q2 : Fin 16), ∃ t : Fin grid0.N, win0_9.index t = ![q0.val, 0, q2.val, 0])

/-! ## What a point writes back, and the whole array -/

/-- The window-independent data as the region finds it: the weights and biases are the arguments', the position
    bias is the array the host's gather left. -/
abbrev P (c : Dev nD) : Params :=
  params (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (V m c main_v15)

/-- The whole result as the kernel's @main computes it. -/
abbrev GK (c : Dev nD) : Img := G (P m c) (m ((c : Thread nD τ).loc main_arg0)) (m ((c : Thread nD τ).loc main_arg1))

/-- WHAT POINT `t` WRITES BACK is block `t` of the whole result. -/
theorem flushed_eq (c : Dev nD) (t : Fin cfg0.N) :
    (dats m 0 c).flushed 9 t = ((cfg0.win 9).blk t).view.read (Elt Ideal) (GK m c) := by
  rw [Value.flushed9]
  unfold out0_9
  rw [View.canon_unit_zero hz4]
  simp only [View.ld_unit_zero (S := S1x512x8x128) hz4, View.ld_unit_zero (S := S512x512) hz2, View.ld_unit_zero (S := S512) hz1,
    View.ld_unit_zero (S := S512x1024) hz2, View.ld_unit_zero (S := S1024) hz1, View.ld_unit_zero (S := S16x64x64) hz3]
  obtain ⟨a0, a1, a2, a3, b0, b1, b2, b3, q0, q1, q2, q3⟩ := idx_facts t
  obtain ⟨c20, c21, c30, c40, c41, c50, c60, c61, c70, c80, c81, c82⟩ := idx_const t
  funext y
  refine body_at (iblk m c 0 t) (iblk m c 1 t) (iblk m c 2 t) (iblk m c 3 t) (iblk m c 4 t) (iblk m c 5 t) (iblk m c 6 t)
    (iblk m c 7 t) (iblk m c 8 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (V m c main_v15)
    ⟨win0_9.index t (0 : Fin 4), q0⟩ ⟨win0_9.index t (2 : Fin 4), q2⟩ ?_ ?_ ?_ ?_ ?_ ?_ ?_ ?_ ?_
    ((cfg0.win 9).xinj (grid0.coords t) y) (((cfg0.win 9).blk t).view.emb y) ?_ ?_ ?_ ?_
  · intro cc i w
    show V m c main_arg0 (((cfg0.win 0).blk t).view.emb (ix4 (0 : Fin 1) cc i w)) = _
    rw [V_main_arg0]
    refine congrArg _ (funext fun a => Fin.ext ?_)
    match a with
    | ⟨0, _⟩ => show win0_0.index t (0 : Fin 4) * 1 + 1 * 0 = win0_9.index t (0 : Fin 4); omega
    | ⟨1, _⟩ => show win0_0.index t (1 : Fin 4) * 512 + 1 * cc.val = cc.val; omega
    | ⟨2, _⟩ => show win0_0.index t (2 : Fin 4) * 8 + 1 * i.val = win0_9.index t (2 : Fin 4) * 8 + i.val; omega
    | ⟨3, _⟩ => show win0_0.index t (3 : Fin 4) * 128 + 1 * w.val = w.val; omega
  · intro cc i w
    show V m c main_arg1 (((cfg0.win 1).blk t).view.emb (ix4 (0 : Fin 1) cc i w)) = _
    rw [V_main_arg1]
    refine congrArg _ (funext fun a => Fin.ext ?_)
    match a with
    | ⟨0, _⟩ => show win0_1.index t (0 : Fin 4) * 1 + 1 * 0 = win0_9.index t (0 : Fin 4); omega
    | ⟨1, _⟩ => show win0_1.index t (1 : Fin 4) * 512 + 1 * cc.val = cc.val; omega
    | ⟨2, _⟩ => show win0_1.index t (2 : Fin 4) * 8 + 1 * i.val = win0_9.index t (2 : Fin 4) * 8 + i.val; omega
    | ⟨3, _⟩ => show win0_1.index t (3 : Fin 4) * 128 + 1 * w.val = w.val; omega
  · intro cc o
    show V m c main_v1 (((cfg0.win 2).blk t).view.emb (ix2 cc o)) = _
    have e : ((cfg0.win 2).blk t).view.emb (ix2 cc o) = ix2 cc o := funext fun a => Fin.ext (by
      match a with
      | ⟨0, _⟩ => show win0_2.index t (0 : Fin 2) * 512 + 1 * cc.val = cc.val; omega
      | ⟨1, _⟩ => show win0_2.index t (1 : Fin 2) * 512 + 1 * o.val = o.val; omega)
    rw [e, V_wq]
    exact transpose_sq_apply _ cc o
  · intro o
    show V m c main_arg3 (((cfg0.win 3).blk t).view.emb (ix1 o)) = _
    rw [V_main_arg3]
    refine congrArg _ (funext fun a => Fin.ext ?_)
    match a with
    | ⟨0, _⟩ => show win0_3.index t (0 : Fin 1) * 512 + 1 * o.val = o.val; omega
  · intro cc o
    show V m c main_v3 (((cfg0.win 4).blk t).view.emb (ix2 cc o)) = _
    have e : ((cfg0.win 4).blk t).view.emb (ix2 cc o) = ix2 cc o := funext fun a => Fin.ext (by
      match a with
      | ⟨0, _⟩ => show win0_4.index t (0 : Fin 2) * 512 + 1 * cc.val = cc.val; omega
      | ⟨1, _⟩ => show win0_4.index t (1 : Fin 2) * 1024 + 1 * o.val = o.val; omega)
    rw [e, V_wkv]
    exact transpose_kv_apply _ cc o
  · intro o
    show V m c main_arg5 (((cfg0.win 5).blk t).view.emb (ix1 o)) = _
    rw [V_main_arg5]
    refine congrArg _ (funext fun a => Fin.ext ?_)
    match a with
    | ⟨0, _⟩ => show win0_5.index t (0 : Fin 1) * 1024 + 1 * o.val = o.val; omega
  · intro e cc
    show V m c main_v5 (((cfg0.win 6).blk t).view.emb (ix2 e cc)) = _
    have e' : ((cfg0.win 6).blk t).view.emb (ix2 e cc) = ix2 e cc := funext fun a => Fin.ext (by
      match a with
      | ⟨0, _⟩ => show win0_6.index t (0 : Fin 2) * 512 + 1 * e.val = e.val; omega
      | ⟨1, _⟩ => show win0_6.index t (1 : Fin 2) * 512 + 1 * cc.val = cc.val; omega)
    rw [e', V_wo]
    exact transpose_sq_apply _ e cc
  · intro o
    show V m c main_arg7 (((cfg0.win 7).blk t).view.emb (ix1 o)) = _
    rw [V_main_arg7]
    refine congrArg _ (funext fun a => Fin.ext ?_)
    match a with
    | ⟨0, _⟩ => show win0_7.index t (0 : Fin 1) * 512 + 1 * o.val = o.val; omega
  · intro h mm n
    show V m c main_v15 (((cfg0.win 8).blk t).view.emb (ix3 h mm n)) = _
    refine congrArg _ (funext fun a => Fin.ext ?_)
    match a with
    | ⟨0, _⟩ => show win0_8.index t (0 : Fin 3) * 16 + 1 * h.val = h.val; omega
    | ⟨1, _⟩ => show win0_8.index t (1 : Fin 3) * 64 + 1 * mm.val = mm.val; omega
    | ⟨2, _⟩ => show win0_8.index t (2 : Fin 3) * 64 + 1 * n.val = n.val; omega
  · show win0_9.index t (0 : Fin 4) * 1 + 1 * (y 0).val = win0_9.index t (0 : Fin 4)
    have : (y 0).val < 1 := (y 0).isLt
    omega
  · show win0_9.index t (1 : Fin 4) * 512 + 1 * (y 1).val = (y 1).val; omega
  · show win0_9.index t (2 : Fin 4) * 8 + 1 * (y 2).val = win0_9.index t (2 : Fin 4) * 8 + (y 2).val; omega
  · show win0_9.index t (3 : Fin 4) * 128 + 1 * (y 3).val = (y 3).val; omega

/-- An index of the array is in point `t`'s block iff each coordinate is in the block's range on its axis. -/
theorem mem_blk (t : Fin cfg0.N) (i : S8x512x128x128.Idx) :
    i ∈ ((cfg0.win 9).blk t).view.set ↔ ∀ a : Fin 4, win0_9.index t a * S1x512x8x128.size a ≤ (i a).val ∧ (i a).val < win0_9.index t a * S1x512x8x128.size a + S1x512x8x128.size a := by
  show i ∈ ((View.whole main_v16).slice (win0_9.rect t)).set ↔ _
  rw [View.set_slice_whole, Rect.mem_set_unit]
  exact Iff.rfl

/-- The 128 blocks tile the result: pixel (b, ·, hh, ·) is in the block of the point (b, hh / 8). -/
theorem cover (i : S8x512x128x128.Idx) : ∃ t : Fin cfg0.N, (cfg0.win 9).flush t = true ∧ i ∈ ((cfg0.win 9).blk t).view.set := by
  have hi0 : (i 0).val < 8 := (i 0).isLt
  have hi1 : (i 1).val < 512 := (i 1).isLt
  have hi2 : (i 2).val < 128 := (i 2).isLt
  have hi3 : (i 3).val < 128 := (i 3).isLt
  obtain ⟨t, ht⟩ := idx_onto ⟨(i 0).val, hi0⟩ ⟨(i 2).val / 8, by omega⟩
  have q0 : win0_9.index t (0 : Fin 4) = (i 0).val := congrFun ht 0
  have q1 : win0_9.index t (1 : Fin 4) = 0 := congrFun ht 1
  have q2 : win0_9.index t (2 : Fin 4) = (i 2).val / 8 := congrFun ht 2
  have q3 : win0_9.index t (3 : Fin 4) = 0 := congrFun ht 3
  refine ⟨t, flush0_9 t, ?_⟩
  rw [mem_blk]
  intro a
  match a with
  | ⟨0, _⟩ => show win0_9.index t (0 : Fin 4) * 1 ≤ (i 0).val ∧ (i 0).val < win0_9.index t (0 : Fin 4) * 1 + 1; omega
  | ⟨1, _⟩ => show win0_9.index t (1 : Fin 4) * 512 ≤ (i 1).val ∧ (i 1).val < win0_9.index t (1 : Fin 4) * 512 + 512; omega
  | ⟨2, _⟩ => show win0_9.index t (2 : Fin 4) * 8 ≤ (i 2).val ∧ (i 2).val < win0_9.index t (2 : Fin 4) * 8 + 8; omega
  | ⟨3, _⟩ => show win0_9.index t (3 : Fin 4) * 128 ≤ (i 3).val ∧ (i 3).val < win0_9.index t (3 : Fin 4) * 128 + 128; omega

/-- THE RESULT ARRAY after the run is the whole result. -/
theorem final (c : Dev nD) : (dats m 0 c).arrAt 9 cfg0.N = GK m c :=
  (dats m 0 c).arrAt_eq_of_cover 9 (GK m c) (fun t _ => flushed_eq m c t) cover

/-- The kernel's run, read: the result array holds the whole result, the arguments are unchanged. -/
theorem run : θ_run defs (onTc (τ := τ) (main (F := Ideal))) ⟨m, fun _ => 0, ρ⟩ fun r => ∀ c : Dev nD,
      r.2.mem ((c : Thread nD τ).loc main_v16) = GK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelIdeal.Blocks

end
-- ==== Proof.RProj.lean ====
/-
  The reference's three projections, split into heads, read at an index.

  The reference cuts each image `[8, 512, 128, 128]` into 2048 windows (image `b`, window-row `r1`,
  window-column `r2`; window index `(16·b + r1)·16 + r2`) of 64 tokens (token `m = 8·i + j` is the pixel
  `(8·r1 + i, 8·r2 + j)`), projects, and splits the channels into 16 heads of 32 lanes.
-/
import proofs.«425595_j7851200217267_3_alg».proof.Proof.Gen.ReferenceIdeal.Read
import proofs.«425595_j7851200217267_3_alg».proof.Proof.Spec
import Idealize.ShloMosaic.Lib.ValueIdx
import Idealize.ShloMosaic.Lib.ValueIdxRank6
import Idealize.ShloMosaic.Lib.Pipeline.Value
import Idealize.ShloMosaic.PureOps.Ideal.Laws

noncomputable section

namespace Cert.ReferenceIdeal.Hand

open Cert.ReferenceIdeal Cert.ReferenceIdeal.Read Idealize.ShloMosaic Idealize.ShloMosaic.ValueIdx Cert.WinAttn

/-- The column of token `m` inside its window. -/
private def colIn (m : Fin 64) : Fin 8 := ⟨m.val % 8, by omega⟩

/-! ## The images cut into windows

  The reference views an image `[8, 512, 128, 128]` as `[8, 512, 16, 8, 16, 8]` (row `= 8·r1 + i`, column `= 8·r2 + j`),
  moves the axes to `(b, r1, r2, i, j, c)` and flattens to `[2048, 64, 512]`: window `(16·b + r1)·16 + r2`, token `8·i + j`. -/

/-- Token `m`, channel `c` of window `(b, r1, r2)` of the first image is the pixel `(b, c, 8·r1 + m / 8, 8·r2 + m % 8)`. -/
theorem v2_apply (x0 : FVec Ideal S8x512x128x128 .f32) (b : Fin 8) (r1 r2 : Fin 16) (m : Fin 64) (c : Fin 512) :
    val_main_v2 (F := Ideal) x0 (ix3 (win b r1 r2) m c) = x0 (ix4 b c (tokRow r1 m) (tokCol r2 m)) := by
  have hb := b.isLt; have h1 := r1.isLt; have h2 := r2.isLt; have hm := m.isLt; have hc := c.isLt
  unfold val_main_v2
  -- the flattening: both positions are ((((b·16 + r1)·16 + r2)·8 + i)·8 + j)·512 + c with m = 8·i + j
  refine (shapeCast_apply (val_main_v1 (F := Ideal) x0) Gen.shapeCasts_S8x16x16x8x8x512_S2048x64x512
    (ix3 (win b r1 r2) m c) (ix6 b r1 r2 (rowIn m) (colIn m) c) ?_).trans ?_
  · rw [Shape.rowMajor_val_six, Shape.rowMajor_val_three]
    show ((((b.val * 16 + r1.val) * 16 + r2.val) * 8 + m.val / 8) * 8 + m.val % 8) * 512 + c.val
      = (((b.val * 16 + r1.val) * 16 + r2.val) * 64 + m.val) * 512 + c.val
    omega
  -- the move of the axes, then the split of rows and columns: 128 = 16 · 8 on each
  refine (val_main_v1_apply (F := Ideal) x0 _).trans ?_
  unfold val_main_v0
  refine shapeCast_apply x0 Gen.shapeCasts_S8x512x128x128_S8x512x16x8x16x8 _ (ix4 b c (tokRow r1 m) (tokCol r2 m)) ?_
  rw [Shape.rowMajor_val_six, Shape.rowMajor_val_four]
  show ((b.val * 512 + c.val) * 128 + (r1.val * 8 + m.val / 8)) * 128 + (r2.val * 8 + m.val % 8)
    = ((((b.val * 512 + c.val) * 16 + r1.val) * 8 + m.val / 8) * 16 + r2.val) * 8 + m.val % 8
  omega

/-- The same reading of the second image. -/
theorem v5_apply (x1 : FVec Ideal S8x512x128x128 .f32) (b : Fin 8) (r1 r2 : Fin 16) (m : Fin 64) (c : Fin 512) :
    val_main_v5 (F := Ideal) x1 (ix3 (win b r1 r2) m c) = x1 (ix4 b c (tokRow r1 m) (tokCol r2 m)) := by
  have hb := b.isLt; have h1 := r1.isLt; have h2 := r2.isLt; have hm := m.isLt; have hc := c.isLt
  unfold val_main_v5
  refine (shapeCast_apply (val_main_v4 (F := Ideal) x1) Gen.shapeCasts_S8x16x16x8x8x512_S2048x64x512
    (ix3 (win b r1 r2) m c) (ix6 b r1 r2 (rowIn m) (colIn m) c) ?_).trans ?_
  · rw [Shape.rowMajor_val_six, Shape.rowMajor_val_three]
    show ((((b.val * 16 + r1.val) * 16 + r2.val) * 8 + m.val / 8) * 8 + m.val % 8) * 512 + c.val
      = (((b.val * 16 + r1.val) * 16 + r2.val) * 64 + m.val) * 512 + c.val
    omega
  refine (val_main_v4_apply (F := Ideal) x1 _).trans ?_
  unfold val_main_v3
  refine shapeCast_apply x1 Gen.shapeCasts_S8x512x128x128_S8x512x16x8x16x8 _ (ix4 b c (tokRow r1 m) (tokCol r2 m)) ?_
  rw [Shape.rowMajor_val_six, Shape.rowMajor_val_four]
  show ((b.val * 512 + c.val) * 128 + (r1.val * 8 + m.val / 8)) * 128 + (r2.val * 8 + m.val % 8)
    = ((((b.val * 512 + c.val) * 16 + r1.val) * 8 + m.val / 8) * 16 + r2.val) * 8 + m.val % 8
  omega

/-! ## The projections before the split into heads -/

/-- The query projection with its bias, token `m` of a window, output channel `e`. -/
private theorem v9_at (x0 : FVec Ideal S8x512x128x128 .f32) (x2 : FVec Ideal S512x512 .f32) (x3 : FVec Ideal S512 .f32)
    (b : Fin 8) (r1 r2 : Fin 16) (m : Fin 64) (e : Fin 512) :
    val_main_v9 (F := Ideal) x0 x2 x3 (ix3 (win b r1 r2) m e)
      = (∑ c : Fin 512, imgTok x0 b r1 r2 m c * x2 (ix2 e c)) + x3 (ix1 e) := by
  have e6 : val_main_v6 (F := Ideal) x0 x2 (ix3 (win b r1 r2) m e)
      = ∑ c : Fin 512, imgTok x0 b r1 r2 m c * x2 (ix2 e c) := by
    refine (val_main_v6_apply x0 x2 _).trans (Finset.sum_congr rfl fun k _ => ?_)
    have el : lidx_main_v6 (ix3 (win b r1 r2) m e) k = ix3 (win b r1 r2) m k := funext fun a => Fin.ext (by
      match a with
      | ⟨0, _⟩ => rfl
      | ⟨1, _⟩ => rfl
      | ⟨2, _⟩ => rfl)
    have er : ridx_main_v6 (ix3 (win b r1 r2) m e) k = ix2 e k := funext fun a => Fin.ext (by
      match a with
      | ⟨0, _⟩ => rfl
      | ⟨1, _⟩ => rfl)
    rw [el, er, v2_apply]
    rfl
  have e8 : val_main_v8 (F := Ideal) x3 (ix3 (win b r1 r2) m e) = x3 (ix1 e) := by
    refine (val_main_v8_apply (F := Ideal) x3 _).trans ((val_main_v7_apply (F := Ideal) x3 _).trans (congrArg x3 ?_))
    exact funext fun a => Fin.ext (by match a with | ⟨0, _⟩ => rfl)
  refine (val_main_v9_apply (F := Ideal) x0 x2 x3 _).trans ?_
  rw [e6, e8]
  rfl

/-- The joint key/value projection with its bias, token `n` of a window, output channel `e` of the 1024. -/
private theorem v13_at (x1 : FVec Ideal S8x512x128x128 .f32) (x4 : FVec Ideal S1024x512 .f32) (x5 : FVec Ideal S1024 .f32)
    (b : Fin 8) (r1 r2 : Fin 16) (n : Fin 64) (e : Fin 1024) :
    val_main_v13 (F := Ideal) x1 x4 x5 (ix3 (win b r1 r2) n e)
      = (∑ c : Fin 512, imgTok x1 b r1 r2 n c * x4 (ix2 e c)) + x5 (ix1 e) := by
  have e10 : val_main_v10 (F := Ideal) x1 x4 (ix3 (win b r1 r2) n e)
      = ∑ c : Fin 512, imgTok x1 b r1 r2 n c * x4 (ix2 e c) := by
    refine (val_main_v10_apply x1 x4 _).trans (Finset.sum_congr rfl fun k _ => ?_)
    have el : lidx_main_v10 (ix3 (win b r1 r2) n e) k = ix3 (win b r1 r2) n k := funext fun a => Fin.ext (by
      match a with
      | ⟨0, _⟩ => rfl
      | ⟨1, _⟩ => rfl
      | ⟨2, _⟩ => rfl)
    have er : ridx_main_v10 (ix3 (win b r1 r2) n e) k = ix2 e k := funext fun a => Fin.ext (by
      match a with
      | ⟨0, _⟩ => rfl
      | ⟨1, _⟩ => rfl)
    rw [el, er, v5_apply]
    rfl
  have e12 : val_main_v12 (F := Ideal) x5 (ix3 (win b r1 r2) n e) = x5 (ix1 e) := by
    refine (val_main_v12_apply (F := Ideal) x5 _).trans ((val_main_v11_apply (F := Ideal) x5 _).trans (congrArg x5 ?_))
    exact funext fun a => Fin.ext (by match a with | ⟨0, _⟩ => rfl)
  refine (val_main_v13_apply (F := Ideal) x1 x4 x5 _).trans ?_
  rw [e10, e12]
  rfl

/-! ## The split of 512 channels into 16 heads of 32 lanes, and the exchange of the token and head axes -/

/-- Position `((w·64 + m)·16 + h)·32 + d` of `[2048, 64, 16, 32]` is window `w`, token `m`, channel `32·h + d` of `[2048, 64, 512]`. -/
private theorem split_pos (w : Fin 2048) (m : Fin 64) (h : Fin 16) (d : Fin 32) :
    (((w.val * 64 + m.val) * 16 + h.val) * 32 + d.val) / 32768 = w.val
    ∧ (((w.val * 64 + m.val) * 16 + h.val) * 32 + d.val) / 512 % 64 = m.val
    ∧ (((w.val * 64 + m.val) * 16 + h.val) * 32 + d.val) % 512 = h.val * 32 + d.val := by
  have hw := w.isLt; have hm := m.isLt; have hh := h.isLt; have hd' := d.isLt
  omega

private theorem idx18_at (w : Fin 2048) (m : Fin 64) (h : Fin 16) (d : Fin 32) :
    idx_main_v18 (ix4 w m h d) = ix3 w m (hd h d) := funext fun a => Fin.ext (by
  match a with
  | ⟨0, _⟩ => exact (split_pos w m h d).1
  | ⟨1, _⟩ => exact (split_pos w m h d).2.1
  | ⟨2, _⟩ => exact (split_pos w m h d).2.2)

private theorem idx20_at (w : Fin 2048) (m : Fin 64) (h : Fin 16) (d : Fin 32) :
    idx_main_v20 (ix4 w m h d) = ix3 w m (hd h d) := funext fun a => Fin.ext (by
  match a with
  | ⟨0, _⟩ => exact (split_pos w m h d).1
  | ⟨1, _⟩ => exact (split_pos w m h d).2.1
  | ⟨2, _⟩ => exact (split_pos w m h d).2.2)

private theorem idx22_at (w : Fin 2048) (m : Fin 64) (h : Fin 16) (d : Fin 32) :
    idx_main_v22 (ix4 w m h d) = ix3 w m (hd h d) := funext fun a => Fin.ext (by
  match a with
  | ⟨0, _⟩ => exact (split_pos w m h d).1
  | ⟨1, _⟩ => exact (split_pos w m h d).2.1
  | ⟨2, _⟩ => exact (split_pos w m h d).2.2)

private theorem idx19_at (w : Fin 2048) (h : Fin 16) (m : Fin 64) (d : Fin 32) :
    idx_main_v19 (ix4 w h m d) = ix4 w m h d := funext fun a => Fin.ext (by
  match a with
  | ⟨0, _⟩ => rfl
  | ⟨1, _⟩ => rfl
  | ⟨2, _⟩ => rfl
  | ⟨3, _⟩ => rfl)

private theorem idx21_at (w : Fin 2048) (h : Fin 16) (m : Fin 64) (d : Fin 32) :
    idx_main_v21 (ix4 w h m d) = ix4 w m h d := funext fun a => Fin.ext (by
  match a with
  | ⟨0, _⟩ => rfl
  | ⟨1, _⟩ => rfl
  | ⟨2, _⟩ => rfl
  | ⟨3, _⟩ => rfl)

private theorem idx23_at (w : Fin 2048) (h : Fin 16) (m : Fin 64) (d : Fin 32) :
    idx_main_v23 (ix4 w h m d) = ix4 w m h d := funext fun a => Fin.ext (by
  match a with
  | ⟨0, _⟩ => rfl
  | ⟨1, _⟩ => rfl
  | ⟨2, _⟩ => rfl
  | ⟨3, _⟩ => rfl)

/-- The key half of the 1024 channels is the first 512 … -/
private theorem idx14_at (w : Fin 2048) (m : Fin 64) (h : Fin 16) (d : Fin 32) :
    idx_main_v14 (ix3 w m (hd h d)) = ix3 w m (kch h d) := funext fun a => Fin.ext (by
  match a with
  | ⟨0, _⟩ => rfl
  | ⟨1, _⟩ => rfl
  | ⟨2, _⟩ => rfl)

/-- … and the value half the last 512. -/
private theorem idx15_at (w : Fin 2048) (m : Fin 64) (h : Fin 16) (d : Fin 32) :
    idx_main_v15 (ix3 w m (hd h d)) = ix3 w m (vch h d) := funext fun a => Fin.ext (by
  match a with
  | ⟨0, _⟩ => rfl
  | ⟨1, _⟩ => rfl
  | ⟨2, _⟩ => rfl)

theorem v19_apply (x0 : FVec Ideal S8x512x128x128 .f32) (x2 : FVec Ideal S512x512 .f32) (x3 : FVec Ideal S512 .f32)
    (b : Fin 8) (r1 r2 h : Fin 16) (m : Fin 64) (d : Fin 32) :
    val_main_v19 (F := Ideal) x0 x2 x3 (ix4 (win b r1 r2) h m d)
      = qOf (fun o c => x2 (ix2 o c)) (fun o => x3 (ix1 o)) (Ideal.ofBits .f32 0x3E3504F3#32) (imgTok x0 b r1 r2) h m d := by
  refine (val_main_v19_apply (F := Ideal) x0 x2 x3 _).trans ?_
  rw [idx19_at]
  refine (val_main_v18_apply (F := Ideal) x0 x2 x3 _).trans ?_
  rw [idx18_at]
  refine (val_main_v17_apply (F := Ideal) x0 x2 x3 _).trans ?_
  rw [v9_at, val_main_v16_apply, val_main_cst_apply]
  rfl

theorem v21_apply (x1 : FVec Ideal S8x512x128x128 .f32) (x4 : FVec Ideal S1024x512 .f32) (x5 : FVec Ideal S1024 .f32)
    (b : Fin 8) (r1 r2 h : Fin 16) (n : Fin 64) (d : Fin 32) :
    val_main_v21 (F := Ideal) x1 x4 x5 (ix4 (win b r1 r2) h n d)
      = kOf (fun o c => x4 (ix2 o c)) (fun o => x5 (ix1 o)) (imgTok x1 b r1 r2) h n d := by
  refine (val_main_v21_apply (F := Ideal) x1 x4 x5 _).trans ?_
  rw [idx21_at]
  refine (val_main_v20_apply (F := Ideal) x1 x4 x5 _).trans ?_
  rw [idx20_at]
  refine (val_main_v14_apply (F := Ideal) x1 x4 x5 _).trans ?_
  rw [idx14_at, v13_at]
  rfl

theorem v23_apply (x1 : FVec Ideal S8x512x128x128 .f32) (x4 : FVec Ideal S1024x512 .f32) (x5 : FVec Ideal S1024 .f32)
    (b : Fin 8) (r1 r2 h : Fin 16) (n : Fin 64) (d : Fin 32) :
    val_main_v23 (F := Ideal) x1 x4 x5 (ix4 (win b r1 r2) h n d)
      = vOf (fun o c => x4 (ix2 o c)) (fun o => x5 (ix1 o)) (imgTok x1 b r1 r2) h n d := by
  refine (val_main_v23_apply (F := Ideal) x1 x4 x5 _).trans ?_
  rw [idx23_at]
  refine (val_main_v22_apply (F := Ideal) x1 x4 x5 _).trans ?_
  rw [idx22_at]
  refine (val_main_v15_apply (F := Ideal) x1 x4 x5 _).trans ?_
  rw [idx15_at, v13_at]
  rfl

end Cert.ReferenceIdeal.Hand

end
-- ==== Proof.RCore.lean ====
/-
  The reference's attention core, output projection and the re-assembly of the image, read at a pixel.

  Pixel `(hh, ww)` of image `b` lies in window `(b, hh / 8, ww / 8)` at token `8·(hh % 8) + ww % 8`; channel `c`
  of the result there is that window's attention output over the per-head queries, keys and values of the
  reference's own earlier stages.
-/
import proofs.«425595_j7851200217267_3_alg».proof.Proof.Gen.ReferenceIdeal.Read
import proofs.«425595_j7851200217267_3_alg».proof.Proof.Spec
import Idealize.ShloMosaic.Lib.ValueIdx
import Idealize.ShloMosaic.Lib.ValueIdxRank6
import Idealize.ShloMosaic.Lib.Pipeline.Value
import Idealize.ShloMosaic.PureOps.Ideal.Laws

noncomputable section

namespace Cert.ReferenceIdeal.Hand

open Cert.ReferenceIdeal Cert.ReferenceIdeal.Read Idealize.ShloMosaic Idealize.ShloMosaic.ValueIdx Cert.WinAttn

section Stages

variable (x0 x1 : FVec Ideal S8x512x128x128 .f32) (x2 : FVec Ideal S512x512 .f32) (x3 : FVec Ideal S512 .f32)
  (x4 : FVec Ideal S1024x512 .f32) (x5 : FVec Ideal S1024 .f32) (x6 : FVec Ideal S512x512 .f32) (x7 : FVec Ideal S512 .f32)
  (x8 : FVec Ideal S225x16 .f32) (x9 : (⟨S64x64, .i32⟩ : BufTy).Contents (Elt Ideal))

/-! ## The image re-assembled: a pixel is a token of a window

  The two rank-6 casts and the transpose between them only move coordinates: pixel `(b, c, hh, ww)` of the result
  is row `(window, token, c)` of the projected table, with `hh = 8·(hh / 8) + hh % 8` and likewise for `ww`. -/

/-- The result at a pixel is the projected table's entry at the pixel's window and token. -/
theorem v58_at (b : Fin 8) (c : Fin 512) (hh ww : Fin 128) :
    val_main_v58 (F := Ideal) x0 x1 x2 x3 x4 x5 x6 x7 x8 x9 (ix4 b c hh ww)
      = val_main_v55 (F := Ideal) x0 x1 x2 x3 x4 x5 x6 x7 x8 x9
          (ix3 (win b (winOf hh) (winOf ww)) (tokOf (offOf hh) (offOf ww)) c) := by
  have hb := b.isLt; have hc := c.isLt; have h1 := hh.isLt; have h2 := ww.isLt
  unfold val_main_v58
  refine (shapeCast_apply _ _ (ix4 b c hh ww) (ix6 b c (winOf hh) (offOf hh) (winOf ww) (offOf ww)) ?_).trans ?_
  · rw [Shape.rowMajor_val_six, Shape.rowMajor_val_four]
    exact (by omega : ((((b.val * 512 + c.val) * 16 + hh.val / 8) * 8 + hh.val % 8) * 16 + ww.val / 8) * 8 + ww.val % 8
      = ((b.val * 512 + c.val) * 128 + hh.val) * 128 + ww.val)
  rw [val_main_v57_apply]
  unfold val_main_v56
  refine shapeCast_apply _ _ _ (ix3 (win b (winOf hh) (winOf ww)) (tokOf (offOf hh) (offOf ww)) c) ?_
  rw [Shape.rowMajor_val_six, Shape.rowMajor_val_three]
  exact (by omega : (((b.val * 16 + hh.val / 8) * 16 + ww.val / 8) * 64 + (hh.val % 8 * 8 + ww.val % 8)) * 512 + c.val
    = ((((b.val * 16 + hh.val / 8) * 16 + ww.val / 8) * 8 + hh.val % 8) * 8 + ww.val % 8) * 512 + c.val)

/-! ## The output projection -/

/-- A row of the projected table: the heads' contexts laid side by side (channel `e` is lane `e % 32` of head
    `e / 32`) against row `c` of the output weight, plus the output bias. -/
theorem v55_at (w : Fin 2048) (m : Fin 64) (c : Fin 512) :
    val_main_v55 (F := Ideal) x0 x1 x2 x3 x4 x5 x6 x7 x8 x9 (ix3 w m c)
      = (∑ e : Fin 512, val_main_v49 (F := Ideal) x0 x1 x2 x3 x4 x5 x8 x9 (ix4 w (headOf e) m (laneOf e)) * x6 (ix2 c e))
          + x7 (ix1 c) := by
  have hw := w.isLt; have hm := m.isLt
  rw [val_main_v55_apply, val_main_v52_apply, val_main_v54_apply, val_main_v53_apply]
  refine congrArg₂ (· + ·) (Finset.sum_congr rfl fun e _ => ?_) (congrArg x7 ?_)
  · have he := e.isLt
    rw [val_main_v51_apply, val_main_v50_apply]
    refine congrArg₂ (· * ·) (congrArg _ ?_) (congrArg x6 ?_)
    · refine funext fun a => Fin.ext ?_
      match a with
      | ⟨0, _⟩ => exact (by omega : ((w.val * 64 + m.val) * 512 + e.val) / 32768 = w.val)
      | ⟨1, _⟩ => exact (by omega : ((w.val * 64 + m.val) * 512 + e.val) / 32 % 16 = e.val / 32)
      | ⟨2, _⟩ => exact (by omega : ((w.val * 64 + m.val) * 512 + e.val) / 512 % 64 = m.val)
      | ⟨3, _⟩ => exact (by omega : ((w.val * 64 + m.val) * 512 + e.val) % 32 = e.val % 32)
    · exact funext fun a => Fin.ext (by match a with | ⟨0, _⟩ => rfl | ⟨1, _⟩ => rfl)
  · exact funext fun a => Fin.ext (by match a with | ⟨0, _⟩ => rfl)

/-! ## The context: the weights against the values -/

theorem v49_at (w : Fin 2048) (h : Fin 16) (m : Fin 64) (d : Fin 32) :
    val_main_v49 (F := Ideal) x0 x1 x2 x3 x4 x5 x8 x9 (ix4 w h m d)
      = ∑ n : Fin 64, val_main_v48 (F := Ideal) x0 x1 x2 x3 x4 x5 x8 x9 (ix4 w h m n)
          * val_main_v23 (F := Ideal) x1 x4 x5 (ix4 w h n d) := by
  rw [val_main_v49_apply]
  refine Finset.sum_congr rfl fun n _ => congrArg₂ (· * ·) (congrArg _ ?_) (congrArg _ ?_)
  · exact funext fun a => Fin.ext (by match a with | ⟨0, _⟩ => rfl | ⟨1, _⟩ => rfl | ⟨2, _⟩ => rfl | ⟨3, _⟩ => rfl)
  · exact funext fun a => Fin.ext (by match a with | ⟨0, _⟩ => rfl | ⟨1, _⟩ => rfl | ⟨2, _⟩ => rfl | ⟨3, _⟩ => rfl)

/-! ## The softmax of the scores, per window, head and query token -/

/-- Window `w`'s per-head queries, keys and values, and the position bias, as functions of coordinates. -/
private abbrev Qw (w : Fin 2048) : Fin 16 → Fin 64 → Fin 32 → EReal :=
  fun h m d => val_main_v19 (F := Ideal) x0 x2 x3 (ix4 w h m d)
private abbrev Kw (w : Fin 2048) : Fin 16 → Fin 64 → Fin 32 → EReal :=
  fun h n d => val_main_v21 (F := Ideal) x1 x4 x5 (ix4 w h n d)
private abbrev Vw (w : Fin 2048) : Fin 16 → Fin 64 → Fin 32 → EReal :=
  fun h n d => val_main_v23 (F := Ideal) x1 x4 x5 (ix4 w h n d)
private abbrev Bs : Fin 16 → Fin 64 → Fin 64 → EReal :=
  fun h m n => val_main_v34 (F := Ideal) x8 x9 (ix3 h m n)

/-- The score: the query row against the key row over the 32 lanes, plus the bias, which is the same for every
    window. -/
theorem v37_at (w : Fin 2048) (h : Fin 16) (m n : Fin 64) :
    val_main_v37 (F := Ideal) x0 x1 x2 x3 x4 x5 x8 x9 (ix4 w h m n)
      = score (Qw x0 x2 x3 w) (Kw x1 x4 x5 w) (Bs x8 x9) h m n := by
  rw [val_main_v37_apply, val_main_v24_apply, val_main_v36_apply, val_main_v35_apply]
  unfold score
  refine congrArg₂ (· + ·) (Finset.sum_congr rfl fun d _ => congrArg₂ (· * ·) (congrArg _ ?_) (congrArg _ ?_)) (congrArg _ ?_)
  · exact funext fun a => Fin.ext (by match a with | ⟨0, _⟩ => rfl | ⟨1, _⟩ => rfl | ⟨2, _⟩ => rfl | ⟨3, _⟩ => rfl)
  · exact funext fun a => Fin.ext (by match a with | ⟨0, _⟩ => rfl | ⟨1, _⟩ => rfl | ⟨2, _⟩ => rfl | ⟨3, _⟩ => rfl)
  · exact funext fun a => Fin.ext (by match a with | ⟨0, _⟩ => rfl | ⟨1, _⟩ => rfl | ⟨2, _⟩ => rfl)

/-- The row's maximum. The reduction folds `max` over the key tokens from the starting word; taking the maximum with
    that word once more changes nothing, since the fold is already at least its start. -/
theorem v40_at (w : Fin 2048) (h : Fin 16) (m : Fin 64) :
    val_main_v40 (F := Ideal) x0 x1 x2 x3 x4 x5 x8 x9 (ix3 w h m)
      = rowMax (Ideal.ofBits .f32 0xFF800000#32) (Qw x0 x2 x3 w) (Kw x1 x4 x5 w) (Bs x8 x9) h m := by
  have hR : S2048x16x64x64.Reduces [3] S2048x16x64 := by decide
  have e : (val_main_v37 (F := Ideal) x0 x1 x2 x3 x4 x5 x8 x9 ∘ hR.lift (ix3 w h m))
      = fun n => score (Qw x0 x2 x3 w) (Kw x1 x4 x5 w) (Bs x8 x9) h m n :=
    funext fun n => (congrArg (val_main_v37 (F := Ideal) x0 x1 x2 x3 x4 x5 x8 x9)
      (funext fun a => Fin.ext (by match a with | ⟨0, _⟩ => rfl | ⟨1, _⟩ => rfl | ⟨2, _⟩ => rfl | ⟨3, _⟩ => rfl))).trans
      (v37_at x0 x1 x2 x3 x4 x5 x8 x9 w h m n)
  rw [val_main_v40_apply, val_main_v39_apply, val_main_cst_2_apply]
  unfold val_main_v38
  rw [Host.reduce_eq_fold_single FloatOps.maximumf _ _ _ hR _ (ix3 w h m), val_main_cst_1_apply, e]
  unfold rowMax
  exact max_eq_right ((Finset.le_fold_max _).2 (Or.inl le_rfl))

/-- The exponential of the score less the row's maximum. -/
theorem v44_at (w : Fin 2048) (h : Fin 16) (m n : Fin 64) :
    val_main_v44 (F := Ideal) x0 x1 x2 x3 x4 x5 x8 x9 (ix4 w h m n)
      = ex (Ideal.ofBits .f32 0xFF800000#32) (Qw x0 x2 x3 w) (Kw x1 x4 x5 w) (Bs x8 x9) h m n := by
  rw [val_main_v44_apply, val_main_v43_apply, val_main_v42_apply, val_main_v41_apply, v37_at]
  have e : idx_main_v41 (idx_main_v42 (ix4 w h m n)) = ix3 w h m :=
    funext fun a => Fin.ext (by match a with | ⟨0, _⟩ => rfl | ⟨1, _⟩ => rfl | ⟨2, _⟩ => rfl)
  rw [e, v40_at]
  rfl

/-- The row's sum of exponentials: the sum starts from the zero word, which is `0`. -/
theorem v45_at (w : Fin 2048) (h : Fin 16) (m : Fin 64) :
    val_main_v45 (F := Ideal) x0 x1 x2 x3 x4 x5 x8 x9 (ix3 w h m)
      = den (Ideal.ofBits .f32 0xFF800000#32) (Qw x0 x2 x3 w) (Kw x1 x4 x5 w) (Bs x8 x9) h m := by
  rw [val_main_v45_apply, val_main_cst_3_apply]
  show Ideal.ofBits .f32 0x00000000#32 + _ = _
  rw [Ideal.ofBits_zero_f32, zero_add]
  unfold den
  refine Finset.sum_congr rfl fun n _ => ?_
  refine (congrArg (val_main_v44 (F := Ideal) x0 x1 x2 x3 x4 x5 x8 x9) ?_).trans (v44_at x0 x1 x2 x3 x4 x5 x8 x9 w h m n)
  exact funext fun a => Fin.ext (by match a with | ⟨0, _⟩ => rfl | ⟨1, _⟩ => rfl | ⟨2, _⟩ => rfl | ⟨3, _⟩ => rfl)

/-- The weight: the exponential over the row's sum, by the exact quotient. -/
theorem v48_at (w : Fin 2048) (h : Fin 16) (m n : Fin 64) :
    val_main_v48 (F := Ideal) x0 x1 x2 x3 x4 x5 x8 x9 (ix4 w h m n)
      = wgt (Ideal.ofBits .f32 0xFF800000#32) (Qw x0 x2 x3 w) (Kw x1 x4 x5 w) (Bs x8 x9) h m n := by
  rw [val_main_v48_apply, val_main_v47_apply, val_main_v46_apply, v44_at]
  have e : idx_main_v46 (idx_main_v47 (ix4 w h m n)) = ix3 w h m :=
    funext fun a => Fin.ext (by match a with | ⟨0, _⟩ => rfl | ⟨1, _⟩ => rfl | ⟨2, _⟩ => rfl)
  rw [e, v45_at]
  rfl

end Stages

theorem v58_apply (x0 x1 : FVec Ideal S8x512x128x128 .f32) (x2 : FVec Ideal S512x512 .f32) (x3 : FVec Ideal S512 .f32)
    (x4 : FVec Ideal S1024x512 .f32) (x5 : FVec Ideal S1024 .f32) (x6 : FVec Ideal S512x512 .f32) (x7 : FVec Ideal S512 .f32)
    (x8 : FVec Ideal S225x16 .f32) (x9 : (⟨S64x64, .i32⟩ : BufTy).Contents (Elt Ideal))
    (b : Fin 8) (c : Fin 512) (hh ww : Fin 128) :
    val_main_v58 (F := Ideal) x0 x1 x2 x3 x4 x5 x6 x7 x8 x9 (ix4 b c hh ww)
      = attn (Ideal.ofBits .f32 0xFF800000#32)
          (fun h m d => val_main_v19 (F := Ideal) x0 x2 x3 (ix4 (win b (winOf hh) (winOf ww)) h m d))
          (fun h n d => val_main_v21 (F := Ideal) x1 x4 x5 (ix4 (win b (winOf hh) (winOf ww)) h n d))
          (fun h n d => val_main_v23 (F := Ideal) x1 x4 x5 (ix4 (win b (winOf hh) (winOf ww)) h n d))
          (fun h m n => val_main_v34 (F := Ideal) x8 x9 (ix3 h m n))
          (fun c e => x6 (ix2 c e)) (fun c => x7 (ix1 c))
          (tokOf (offOf hh) (offOf ww)) c := by
  rw [v58_at, v55_at]
  unfold attn ctx
  refine congrArg (· + x7 (ix1 c)) (Finset.sum_congr rfl fun e _ => congrArg (· * x6 (ix2 c e)) ?_)
  rw [v49_at]
  exact Finset.sum_congr rfl fun n _ => congrArg (· * _) (v48_at x0 x1 x2 x3 x4 x5 x8 x9 _ _ _ n)

end Cert.ReferenceIdeal.Hand

end
-- ==== Proof.RWhole.lean ====
/-
  The reference's result as ONE function of its arguments: at every pixel, the attention output of the window the
  pixel lies in, over that window's token tables of the two images.
-/
import proofs.«425595_j7851200217267_3_alg».proof.Proof.RProj
import proofs.«425595_j7851200217267_3_alg».proof.Proof.RCore
import proofs.«425595_j7851200217267_3_alg».proof.Proof.Spec
import Idealize.ShloMosaic.Lib.ValueIdx

noncomputable section

namespace Cert.ReferenceIdeal.Hand

open Cert.ReferenceIdeal Cert.ReferenceIdeal.Read Idealize.ShloMosaic Idealize.ShloMosaic.ValueIdx Cert.WinAttn

/-- The last stage of the reference is the whole result `G`, with the weights in their own orientation and the
    position bias the reference's own gathered and transposed table. -/
theorem result_eq (x0 x1 : FVec Ideal S8x512x128x128 .f32) (x2 : FVec Ideal S512x512 .f32) (x3 : FVec Ideal S512 .f32)
    (x4 : FVec Ideal S1024x512 .f32) (x5 : FVec Ideal S1024 .f32) (x6 : FVec Ideal S512x512 .f32) (x7 : FVec Ideal S512 .f32)
    (x8 : FVec Ideal S225x16 .f32) (x9 : (⟨S64x64, .i32⟩ : BufTy).Contents (Elt Ideal)) :
    val_main_v58 (F := Ideal) x0 x1 x2 x3 x4 x5 x6 x7 x8 x9
      = G (params x2 x3 x4 x5 x6 x7 (val_main_v34 (F := Ideal) x8 x9)) x0 x1 := by
  funext i
  obtain ⟨b, c, hh, ww, rfl⟩ : ∃ (b : Fin 8) (c : Fin 512) (hh ww : Fin 128), i = ix4 b c hh ww :=
    ⟨i 0, i 1, i 2, i 3, eq_ix4 i⟩
  rw [v58_apply, G_ix4]
  simp only [v19_apply, v21_apply, v23_apply]
  rfl

end Cert.ReferenceIdeal.Hand

end
-- ==== Proof.lean ====
/-
  Windowed multi-head attention, a fused kernel against its plain reference, over the extended reals.

  Both programs take two image batches xa, xb : [8, 512, 128, 128], cut every image into 16 × 16 windows of 8 × 8
  pixels (64 tokens of 512 channels each) and compute, window by window,
      q = (x Wqᵀ + bq) · scale,   k, v = the halves of  y Wkvᵀ + bkv,
      per head (16 heads of 32 lanes):  softmax(q kᵀ + bias) · v,
      out = merged · Woᵀ + bo,
  and put the windows back where they came from. The position bias is gathered from a table by the same host
  operations in both programs. The kernel visits the 8 × 16 grid of (image, window-row) pairs; at a point it stages
  8 image rows of every channel, re-lays them as 16 windows inside the block, runs the attention for the 16 windows at
  once (the weights transposed beforehand on the host) and writes the 8 rows of the result back. The reference does
  the same arithmetic on all 2048 windows at once.

  At the ideal instance a change of float format is the identity, a matrix product into a zero accumulator and the
  host's dot_general are the same finite sum, and the two programs differ only in how they lay the data out: every
  entry of either result is the same expression `Cert.WinAttn.G` of the arguments (Proof/Spec.lean). No algebraic law
  beyond the re-indexing of finite sums is needed, so the precondition is never opened. The scale 32^(-1/2) and the
  fold's starting value −∞ are the same float words in both programs and are never evaluated.

  Proof/KProj.lean and Proof/KCore.lean read the kernel body's arithmetic at an index; Proof/KBlocks.lean goes from
  a grid point's block to the whole array; Proof/RProj.lean, Proof/RCore.lean and Proof/RWhole.lean read the
  reference's stages at a pixel. Here the two are joined, and the frames are the generated ones.
-/
import proofs.«425595_j7851200217267_3_alg».proof.Defs
import proofs.«425595_j7851200217267_3_alg».proof.Proof.Gen.Kernel
import proofs.«425595_j7851200217267_3_alg».proof.Proof.Gen.Kernel.Skeleton
import proofs.«425595_j7851200217267_3_alg».proof.Proof.Gen.Kernel.Launch
import proofs.«425595_j7851200217267_3_alg».proof.Proof.Gen.Kernel.Points
import proofs.«425595_j7851200217267_3_alg».proof.Proof.Gen.Kernel.Frame
import proofs.«425595_j7851200217267_3_alg».proof.Proof.Gen.KernelIdeal
import proofs.«425595_j7851200217267_3_alg».proof.Proof.Gen.KernelIdeal.Skeleton
import proofs.«425595_j7851200217267_3_alg».proof.Proof.Gen.KernelIdeal.Launch
import proofs.«425595_j7851200217267_3_alg».proof.Proof.Gen.KernelIdeal.Points
import proofs.«425595_j7851200217267_3_alg».proof.Proof.Gen.KernelIdeal.Frame
import proofs.«425595_j7851200217267_3_alg».proof.Proof.Gen.ReferenceIdeal
import proofs.«425595_j7851200217267_3_alg».proof.Proof.Gen.Pre_finite_inputs
import proofs.«425595_j7851200217267_3_alg».proof.Proof.Gen.KernelIdeal.Value
import proofs.«425595_j7851200217267_3_alg».proof.Proof.Gen.ReferenceIdeal.Run
import proofs.«425595_j7851200217267_3_alg».proof.Proof.Gen.ReferenceIdeal.Read
import proofs.«425595_j7851200217267_3_alg».proof.Proof.KBlocks
import proofs.«425595_j7851200217267_3_alg».proof.Proof.RWhole
import Idealize.ShloMosaic.Lib.StableHlo.Run
import Idealize.ShloMosaic.Adequacy
import Idealize.ShloMosaic.Init

noncomputable section

namespace Cert.Proof

open Idealize.ShloMosaic Idealize.ShloMosaic.TcCoe Idealize.SL.Sem

/-- The position bias the kernel's region finds is the reference's own gathered and transposed table of the same
    arguments: the two programs apply the same host operations to the table and the index array. -/
theorem bias_eq (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v15 : Cert.KernelIdeal.S16x64x64.Idx → EReal)
      = Cert.ReferenceIdeal.Read.val_main_v34 (F := Ideal)
          (m ((c : Thread Cert.KernelIdeal.nD Cert.KernelIdeal.τ).loc Cert.KernelIdeal.main_arg8))
          (m ((c : Thread Cert.KernelIdeal.nD Cert.KernelIdeal.τ).loc Cert.KernelIdeal.main_arg9)) := by
  dsimp only [Cert.KernelIdeal.Gen.V, Cert.KernelIdeal.Gen.hostOps0]; after_results; rfl

/-- From memories that agree on the arguments both programs end with the whole result `G` of those arguments. -/
theorem algebraic : Cert.algebraic_KernelIdeal_ReferenceIdeal := by
  intro m ρ m' ρ' _ hagree
  refine ⟨fun c => Cert.KernelIdeal.Blocks.GK m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.Read.val_main_v58_eq, Cert.ReferenceIdeal.Hand.result_eq, e0, e1, e2, e3, e4, e5, e6, e7, e8, e9]
  show _ = Cert.WinAttn.G (Cert.WinAttn.params _ _ _ _ _ _ (Cert.KernelIdeal.Gen.V m c Cert.KernelIdeal.main_v15)) _ _
  rw [bias_eq]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
